-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S64x10 .f32) (main_arg10 : FVec F S10 .f32) (main_v33 : IVec S_ 1) : IVec S_ 1 :=
  let main_v34 : FVec F S64x10 .f32 := Host.absf main_arg9
  let main_cst_12 : FVec F S_ .f32 := constant S_ .f32 0x7F800000#32
  let main_v35 : FVec F S64x10 .f32 := broadcastInDim S64x10 ![] bcast_S_S64x10 main_cst_12
  let main_v36 : IVec S64x10 1 := cmpf .olt main_v34 main_v35
  let main_c_13 : IVec S_ 1 := constantI S_ 1 1#1
  let main_v37 : IVec S_ 1 := (fun x v => Host.reduce IntOp.andi x v reducesTo_S64x10_S_d0_1 h_S_) main_v36 main_c_13
  let main_v38 : IVec S_ 1 := andi main_v33 main_v37
  let main_v39 : FVec F S10 .f32 := Host.absf main_arg10
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg6 : FVec F S64 .f32) (main_arg7 : FVec F S64x64 .f32) (main_arg8 : FVec F S64 .f32) (main_arg9 : FVec F S64x10 .f32) (main_arg10 : FVec F S10 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x3200000 32) (main_arg2 : IVec S100000 32) (main_arg3 : FVec F S128x64 .f32) (main_arg4 : FVec F S64 .f32) (main_arg5 : FVec F S64x64 .f32) (main_arg6 : FVec F S64 .f32) (main_arg7 : FVec F S64x64 .f32) (main_arg8 : FVec F S64 .f32) (main_arg9 : FVec F S64x10 .f32) (main_arg10 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x3200000 : Shape := ⟨2, ![2, 3200000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S10000x128 : Shape := ⟨2, ![10000, 128]⟩
abbrev S10000x64 : Shape := ⟨2, ![10000, 64]⟩
abbrev S3300000x64 : Shape := ⟨2, ![3300000, 64]⟩
abbrev S1x64 : Shape := ⟨2, ![1, 64]⟩
abbrev S100000x1 : Shape := ⟨2, ![100000, 1]⟩
abbrev S256x64 : Shape := ⟨2, ![256, 64]⟩
abbrev S10000x1 : Shape := ⟨2, ![10000, 1]⟩
abbrev S10000x256 : Shape := ⟨2, ![10000, 256]⟩
abbrev S256 : Shape := ⟨1, ![256]⟩
abbrev S256x1 : Shape := ⟨2, ![256, 1]⟩
abbrev S256x10 : Shape := ⟨2, ![256, 10]⟩
abbrev S1x10 : Shape := ⟨2, ![1, 10]⟩

abbrev nBuf : Space → Nat
  | .hbm => 128
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S100000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x10, .f32⟩
  | .hbm, ⟨10, _⟩ => ⟨S10, .f32⟩
  | .hbm, ⟨11, _⟩ => ⟨S100000, .i32⟩
  | .hbm, ⟨12, _⟩ => ⟨S1x3200000, .i32⟩
  | .hbm, ⟨13, _⟩ => ⟨S3200000, .i32⟩
  | .hbm, ⟨14, _⟩ => ⟨S3300000, .i32⟩
  | .hbm, ⟨15, _⟩ => ⟨S1x3200000, .i32⟩
  | .hbm, ⟨16, _⟩ => ⟨S3200000, .i32⟩
  | .hbm, ⟨17, _⟩ => ⟨S3300000, .i32⟩
  | .hbm, ⟨18, _⟩ => ⟨S_, .f32⟩
  | .hbm, ⟨19, _⟩ => ⟨S3300000, .f32⟩
  | .hbm, ⟨20, _⟩ => ⟨S_, .f32⟩
  | .hbm, ⟨21, _⟩ => ⟨S100000, .f32⟩
  | .hbm, ⟨22, _⟩ => ⟨S3300000x1, .i32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S3300000, .i32⟩
  | .hbm, ⟨27, _⟩ => ⟨S3300000, .i1⟩
  | .hbm, ⟨28, _⟩ => ⟨S_, .i32⟩
  | .hbm, ⟨29, _⟩ => ⟨S3300000, .i32⟩
  | .hbm, ⟨30, _⟩ => ⟨S3300000, .i32⟩
  | .hbm, ⟨31, _⟩ => ⟨S3300000, .i32⟩
  | .hbm, ⟨32, _⟩ => ⟨S3300000x1, .i32⟩
  | .hbm, ⟨33, _⟩ => ⟨S3300000, .f32⟩
  | .hbm, ⟨34, _⟩ => ⟨S_, .i32⟩
  | .hbm, ⟨35, _⟩ => ⟨S3300000, .i32⟩
  | .hbm, ⟨36, _⟩ => ⟨S3300000, .i1⟩
  | .hbm, ⟨37, _⟩ => ⟨S_, .i32⟩
  | .hbm, ⟨38, _⟩ => ⟨S3300000, .i32⟩
  | .hbm, ⟨39, _⟩ => ⟨S3300000, .i32⟩
  | .hbm, ⟨40, _⟩ => ⟨S3300000, .i32⟩
  | .hbm, ⟨41, _⟩ => ⟨S3300000x1, .i32⟩
  | .hbm, ⟨42, _⟩ => ⟨S3300000, .f32⟩
  | .hbm, ⟨43, _⟩ => ⟨S3300000, .f32⟩
  | .hbm, ⟨44, _⟩ => ⟨S100000x64, .f32⟩
  | .hbm, ⟨45, _⟩ => ⟨S3300000x1, .f32⟩
  | .hbm, ⟨46, _⟩ => ⟨S_, .i32⟩
  | .hbm, ⟨47, _⟩ => ⟨S3300000, .i32⟩
  | .hbm, ⟨48, _⟩ => ⟨S3300000, .i1⟩
  | .hbm, ⟨49, _⟩ => ⟨S_, .i32⟩
  | .hbm, ⟨50, _⟩ => ⟨S3300000, .i32⟩
  | .hbm, ⟨51, _⟩ => ⟨S3300000, .i32⟩
  | .hbm, ⟨52, _⟩ => ⟨S3300000, .i32⟩
  | .hbm, ⟨53, _⟩ => ⟨S3300000x1, .i32⟩
  | .hbm, ⟨54, _⟩ => ⟨S3300000x64, .f32⟩
  | .hbm, ⟨55, _⟩ => ⟨S3300000x64, .f32⟩
  | .hbm, ⟨56, _⟩ => ⟨S3300000x64, .f32⟩
  | .hbm, ⟨57, _⟩ => ⟨S_, .f32⟩
  | .hbm, ⟨58, _⟩ => ⟨S100000x64, .f32⟩
  | .hbm, ⟨59, _⟩ => ⟨S3300000x1, .i32⟩
  | .hbm, ⟨60, _⟩ => ⟨S100000x64, .f32⟩
  | .hbm, ⟨61, _⟩ => ⟨S1x64, .f32⟩
  | .hbm, ⟨62, _⟩ => ⟨S100000x64, .f32⟩
  | .hbm, ⟨63, _⟩ => ⟨S100000x64, .f32⟩
  | .hbm, ⟨64, _⟩ => ⟨S_, .f32⟩
  | .hbm, ⟨65, _⟩ => ⟨S100000x64, .f32⟩
  | .hbm, ⟨66, _⟩ => ⟨S100000x64, .f32⟩
  | .hbm, ⟨67, _⟩ => ⟨S100000x64, .f32⟩
  | .hbm, ⟨68, _⟩ => ⟨S3300000x1, .f32⟩
  | .hbm, ⟨69, _⟩ => ⟨S_, .i32⟩
  | .hbm, ⟨70, _⟩ => ⟨S3300000, .i32⟩
  | .hbm, ⟨71, _⟩ => ⟨S3300000, .i1⟩
  | .hbm, ⟨72, _⟩ => ⟨S_, .i32⟩
  | .hbm, ⟨73, _⟩ => ⟨S3300000, .i32⟩
  | .hbm, ⟨74, _⟩ => ⟨S3300000, .i32⟩
  | .hbm, ⟨75, _⟩ => ⟨S3300000, .i32⟩
  | .hbm, ⟨76, _⟩ => ⟨S3300000x1, .i32⟩
  | .hbm, ⟨77, _⟩ => ⟨S3300000x64, .f32⟩
  | .hbm, ⟨78, _⟩ => ⟨S3300000x64, .f32⟩
  | .hbm, ⟨79, _⟩ => ⟨S3300000x64, .f32⟩
  | .hbm, ⟨80, _⟩ => ⟨S_, .f32⟩
  | .hbm, ⟨81, _⟩ => ⟨S100000x64, .f32⟩
  | .hbm, ⟨82, _⟩ => ⟨S3300000x1, .i32⟩
  | .hbm, ⟨83, _⟩ => ⟨S100000x64, .f32⟩
  | .hbm, ⟨84, _⟩ => ⟨S1x64, .f32⟩
  | .hbm, ⟨85, _⟩ => ⟨S100000x64, .f32⟩
  | .hbm, ⟨86, _⟩ => ⟨S100000x64, .f32⟩
  | .hbm, ⟨87, _⟩ => ⟨S_, .f32⟩
  | .hbm, ⟨88, _⟩ => ⟨S100000x64, .f32⟩
  | .hbm, ⟨89, _⟩ => ⟨S100000x64, .f32⟩
  | .hbm, ⟨90, _⟩ => ⟨S100000x64, .f32⟩
  | .hbm, ⟨91, _⟩ => ⟨S3300000x1, .f32⟩
  | .hbm, ⟨92, _⟩ => ⟨S_, .i32⟩
  | .hbm, ⟨93, _⟩ => ⟨S3300000, .i32⟩
  | .hbm, ⟨94, _⟩ => ⟨S3300000, .i1⟩
  | .hbm, ⟨95, _⟩ => ⟨S_, .i32⟩
  | .hbm, ⟨96, _⟩ => ⟨S3300000, .i32⟩
  | .hbm, ⟨97, _⟩ => ⟨S3300000, .i32⟩
  | .hbm, ⟨98, _⟩ => ⟨S3300000, .i32⟩
  | .hbm, ⟨99, _⟩ => ⟨S3300000x1, .i32⟩
  | .hbm, ⟨100, _⟩ => ⟨S3300000x64, .f32⟩
  | .hbm, ⟨101, _⟩ => ⟨S3300000x64, .f32⟩
  | .hbm, ⟨102, _⟩ => ⟨S3300000x64, .f32⟩
  | .hbm, ⟨103, _⟩ => ⟨S_, .f32⟩
  | .hbm, ⟨104, _⟩ => ⟨S100000x64, .f32⟩
  | .hbm, ⟨105, _⟩ => ⟨S3300000x1, .i32⟩
  | .hbm, ⟨106, _⟩ => ⟨S100000x64, .f32⟩
  | .hbm, ⟨107, _⟩ => ⟨S1x64, .f32⟩
  | .hbm, ⟨108, _⟩ => ⟨S100000x64, .f32⟩
  | .hbm, ⟨109, _⟩ => ⟨S100000x64, .f32⟩
  | .hbm, ⟨110, _⟩ => ⟨S_, .f32⟩
  | .hbm, ⟨111, _⟩ => ⟨S100000x64, .f32⟩
  | .hbm, ⟨112, _⟩ => ⟨S100000x64, .f32⟩
  | .hbm, ⟨113, _⟩ => ⟨S100000x1, .i32⟩
  | .hbm, ⟨114, _⟩ => ⟨S256x64, .f32⟩
  | .hbm, ⟨115, _⟩ => ⟨S_, .f32⟩
  | .hbm, ⟨116, _⟩ => ⟨S100000, .f32⟩
  | .hbm, ⟨117, _⟩ => ⟨S_, .f32⟩
  | .hbm, ⟨118, _⟩ => ⟨S256, .f32⟩
  | .hbm, ⟨119, _⟩ => ⟨S100000x1, .i32⟩
  | .hbm, ⟨120, _⟩ => ⟨S256, .f32⟩
  | .hbm, ⟨121, _⟩ => ⟨S_, .f32⟩
  | .hbm, ⟨122, _⟩ => ⟨S256, .f32⟩
  | .hbm, ⟨123, _⟩ => ⟨S256, .f32⟩
  | .hbm, ⟨124, _⟩ => ⟨S256x1, .f32⟩
  | .hbm, ⟨125, _⟩ => ⟨S256x64, .f32⟩
  | .hbm, ⟨126, _⟩ => ⟨S256x64, .f32⟩
  | .hbm, ⟨127, _⟩ => ⟨S256x10, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x1, .i32⟩
  | .local _ .vmem, ⟨18, _⟩ => ⟨S10000x1, .i32⟩
  | .local _ .vmem, ⟨19, _⟩ => ⟨S256x64, .f32⟩
  | .local _ .vmem, ⟨20, _⟩ => ⟨S256x64, .f32⟩
  | .local _ .vmem, ⟨21, _⟩ => ⟨S64x10, .f32⟩
  | .local _ .vmem, ⟨22, _⟩ => ⟨S10, .f32⟩
  | .local _ .vmem, ⟨23, _⟩ => ⟨S256x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_4 : Ref sig .tc := ⟨.hbm, 46, rfl⟩
abbrev main_v29 : Ref sig .tc := ⟨.hbm, 47, rfl⟩
abbrev main_v30 : Ref sig .tc := ⟨.hbm, 48, rfl⟩
abbrev main_c_5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_call0_cst : Ref sig .tc := ⟨.hbm, 64, rfl⟩
abbrev main_call0_v0 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_7 : Ref sig .tc := ⟨.hbm, 69, rfl⟩
abbrev main_v47 : Ref sig .tc := ⟨.hbm, 70, rfl⟩
abbrev main_v48 : Ref sig .tc := ⟨.hbm, 71, rfl⟩
abbrev main_c_8 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_9 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_call1_cst : Ref sig .tc := ⟨.hbm, 87, rfl⟩
abbrev main_call1_v0 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_10 : Ref sig .tc := ⟨.hbm, 92, rfl⟩
abbrev main_v65 : Ref sig .tc := ⟨.hbm, 93, rfl⟩
abbrev main_v66 : Ref sig .tc := ⟨.hbm, 94, rfl⟩
abbrev main_c_11 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_12 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_call2_cst : Ref sig .tc := ⟨.hbm, 110, rfl⟩
abbrev main_call2_v0 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_13 : Ref sig .tc := ⟨.hbm, 115, rfl⟩
abbrev main_v83 : Ref sig .tc := ⟨.hbm, 116, rfl⟩
abbrev main_cst_14 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_15 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg2_0 : Ref sig .tc := ⟨.vmem, 22, rfl⟩
abbrev cc4_stg3_0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc4_sem0_0 : DmaSem sig := 20
abbrev cc4_sem1_0 : DmaSem sig := 21
abbrev cc4_sem2_0 : DmaSem sig := 22
abbrev cc4_sem3_0 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S256x64 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S64x10 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S10 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x10 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S100000_S100000x1 : S100000.ShapeCasts S100000x1
  inb_S256x64_S256x64_0_0 : ∀ a, (![0, 0] : Fin 2 → Nat) a + S256x64.size a ≤ S256x64.size a
  h_S256x64 : 0 < S256x64.numel
  iota_S10000x256_d1_w32 : S10000x256.Iotas .tc 32 [1]
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x256 : S10000x1.Broadcasts S10000x256
  natLt_1_32 : 1 < 32
  shapeCasts_S256x64_S256x64 : S256x64.ShapeCasts S256x64
  bcast_S_S256 : S_.BroadcastsInDim S256 (![] : Fin 0 → Fin S256.rank)
  bcast_S100000_S100000x1_0 : S100000.BroadcastsInDim S100000x1 (![0] : Fin 1 → Fin S100000x1.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  inb_S64x10_S64x10_0_0 : ∀ a, (![0, 0] : Fin 2 → Nat) a + S64x10.size a ≤ S64x10.size a
  h_S64x10 : 0 < S64x10.numel
  inb_S10_S10_0 : ∀ a, (![0] : Fin 1 → Nat) a + S10.size a ≤ S10.size a
  h_S10 : 0 < S10.numel
  shapeCasts_S10_S1x10 : S10.ShapeCasts S1x10
  broadcasts_S1x10_S256x10 : S1x10.Broadcasts S256x10
  inb_S256x10_S256x10_0_0 : ∀ a, (![0, 0] : Fin 2 → Nat) a + S256x10.size a ≤ S256x10.size a
  h_S256x10 : 0 < S256x10.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x64_S10000x64_1_0_0_1_n_n_wf : DotDims.WF S10000x128 S128x64 S10000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S10000x64_S64x64_S10000x64_1_0_0_1_n_n_wf : DotDims.WF S10000x64 S64x64 S10000x64 [1] [0] [0] [1] [] []
  dot_S10000x256_S10000x64_S256x64_0_0_1_1_n_n_wf : DotDims.WF S10000x256 S10000x64 S256x64 [0] [0] [1] [1] [] []
  scatter_S256_S100000x1_S100000_n_0_0_1_wf : ScatterDims.WF S256 S100000x1 S100000 [] [0] [0] 1
  dot_S256x64_S64x10_S256x10_1_0_0_1_n_n_wf : DotDims.WF S256x64 S64x10 S256x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S100000x1.size a
  hwx3_1 : ∀ i : grid3.Coords, EltTy.bits .i32 = 32 ∨ (Rect.block (s := S100000x1) S10000x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x64.size a ≤ S256x64.size a
  hwx3_2 : ∀ i : grid3.Coords, EltTy.bits .f32 = 32 ∨ (Rect.block (s := S256x64) S256x64.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S256x64.size a ≤ S256x64.size a
  hwx4_0 : ∀ i : grid4.Coords, EltTy.bits .f32 = 32 ∨ (Rect.block (s := S256x64) S256x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x10.size a ≤ S64x10.size a
  hwx4_1 : ∀ i : grid4.Coords, EltTy.bits .f32 = 32 ∨ (Rect.block (s := S64x10) S64x10.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S10.size a ≤ S10.size a
  hwx4_2 : ∀ i : grid4.Coords, EltTy.bits .f32 = 32 ∨ (Rect.block (s := S10) S10.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x10.size a ≤ S256x10.size a
  hwx4_3 : ∀ i : grid4.Coords, EltTy.bits .f32 = 32 ∨ (Rect.block (s := S256x10) S256x10.size (cc4_transform_3 i) (hinb4_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x256_S10000x64_S256x64_0_0_1_1_n_n : DotDims S10000x256 S10000x64 S256x64 where
  lhsContracting := [0]
  rhsContracting := [0]
  lhsNonContracting := [1]
  rhsNonContracting := [1]
  lhsBatch := []
  rhsBatch := []
  wf := dot_S10000x256_S10000x64_S256x64_0_0_1_1_n_n_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x64_S64x10_S256x10_1_0_0_1_n_n : DotDims S256x64 S64x10 S256x10 where
  lhsContracting := [1]
  rhsContracting := [0]
  lhsNonContracting := [0]
  rhsNonContracting := [1]
  lhsBatch := []
  rhsBatch := []
  wf := dot_S256x64_S64x10_S256x10_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v62) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v63) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v80) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v81) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v82) S256x64.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v91) S256x64.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S64x10.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg10) S10.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v92) S256x10.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S256x64 : Shape := ⟨2, ![256, 64]⟩
abbrev S100000x1 : Shape := ⟨2, ![100000, 1]⟩
abbrev S256 : Shape := ⟨1, ![256]⟩
abbrev S256x1 : Shape := ⟨2, ![256, 1]⟩
abbrev S256x10 : Shape := ⟨2, ![256, 10]⟩
abbrev S1x10 : Shape := ⟨2, ![1, 10]⟩

abbrev nBuf : Space → Nat
  | .hbm => 133
  | .vmem => 0
  | .smem => 0
  | _ => 0

abbrev hbmTy0_0 (i : Nat) : BufTy := match i % 128 with
  | 0 => ⟨S100000x128, .f32⟩
  | 1 => ⟨S2x3200000, .i32⟩
  | 2 => ⟨S100000, .i32⟩
  | 3 => ⟨S128x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x10, .f32⟩
  | 10 => ⟨S10, .f32⟩
  | 11 => ⟨S100000, .i32⟩
  | 12 => ⟨S1x3200000, .i32⟩
  | 13 => ⟨S3200000, .i32⟩
  | 14 => ⟨S3300000, .i32⟩
  | 15 => ⟨S1x3200000, .i32⟩
  | 16 => ⟨S3200000, .i32⟩
  | 17 => ⟨S3300000, .i32⟩
  | 18 => ⟨S_, .f32⟩
  | 19 => ⟨S3300000, .f32⟩
  | 20 => ⟨S_, .f32⟩
  | 21 => ⟨S100000, .f32⟩
  | 22 => ⟨S3300000x1, .i32⟩
  | 23 => ⟨S100000, .f32⟩
  | 24 => ⟨S100000, .f32⟩
  | 25 => ⟨S_, .i32⟩
  | 26 => ⟨S3300000, .i32⟩
  | 27 => ⟨S3300000, .i1⟩
  | 28 => ⟨S_, .i32⟩
  | 29 => ⟨S3300000, .i32⟩
  | 30 => ⟨S3300000, .i32⟩
  | 31 => ⟨S3300000, .i32⟩
  | 32 => ⟨S3300000x1, .i32⟩
  | 33 => ⟨S3300000, .f32⟩
  | 34 => ⟨S_, .i32⟩
  | 35 => ⟨S3300000, .i32⟩
  | 36 => ⟨S3300000, .i1⟩
  | 37 => ⟨S_, .i32⟩
  | 38 => ⟨S3300000, .i32⟩
  | 39 => ⟨S3300000, .i32⟩
  | 40 => ⟨S3300000, .i32⟩
  | 41 => ⟨S3300000x1, .i32⟩
  | 42 => ⟨S3300000, .f32⟩
  | 43 => ⟨S3300000, .f32⟩
  | 44 => ⟨S100000x64, .f32⟩
  | 45 => ⟨S3300000x1, .f32⟩
  | 46 => ⟨S_, .i32⟩
  | 47 => ⟨S3300000, .i32⟩
  | 48 => ⟨S3300000, .i1⟩
  | 49 => ⟨S_, .i32⟩
  | 50 => ⟨S3300000, .i32⟩
  | 51 => ⟨S3300000, .i32⟩
  | 52 => ⟨S3300000, .i32⟩
  | 53 => ⟨S3300000x1, .i32⟩
  | 54 => ⟨S3300000x64, .f32⟩
  | 55 => ⟨S3300000x64, .f32⟩
  | 56 => ⟨S3300000x64, .f32⟩
  | 57 => ⟨S_, .f32⟩
  | 58 => ⟨S100000x64, .f32⟩
  | 59 => ⟨S3300000x1, .i32⟩
  | 60 => ⟨S100000x64, .f32⟩
  | 61 => ⟨S1x64, .f32⟩
  | 62 => ⟨S100000x64, .f32⟩
  | 63 => ⟨S100000x64, .f32⟩
  | 64 => ⟨S_, .f32⟩
  | 65 => ⟨S100000x64, .f32⟩
  | 66 => ⟨S100000x64, .f32⟩
  | 67 => ⟨S100000x64, .f32⟩
  | 68 => ⟨S3300000x1, .f32⟩
  | 69 => ⟨S_, .i32⟩
  | 70 => ⟨S3300000, .i32⟩
  | 71 => ⟨S3300000, .i1⟩
  | 72 => ⟨S_, .i32⟩
  | 73 => ⟨S3300000, .i32⟩
  | 74 => ⟨S3300000, .i32⟩
  | 75 => ⟨S3300000, .i32⟩
  | 76 => ⟨S3300000x1, .i32⟩
  | 77 => ⟨S3300000x64, .f32⟩
  | 78 => ⟨S3300000x64, .f32⟩
  | 79 => ⟨S3300000x64, .f32⟩
  | 80 => ⟨S_, .f32⟩
  | 81 => ⟨S100000x64, .f32⟩
  | 82 => ⟨S3300000x1, .i32⟩
  | 83 => ⟨S100000x64, .f32⟩
  | 84 => ⟨S1x64, .f32⟩
  | 85 => ⟨S100000x64, .f32⟩
  | 86 => ⟨S100000x64, .f32⟩
  | 87 => ⟨S_, .f32⟩
  | 88 => ⟨S100000x64, .f32⟩
  | 89 => ⟨S100000x64, .f32⟩
  | 90 => ⟨S100000x64, .f32⟩
  | 91 => ⟨S3300000x1, .f32⟩
  | 92 => ⟨S_, .i32⟩
  | 93 => ⟨S3300000, .i32⟩
  | 94 => ⟨S3300000, .i1⟩
  | 95 => ⟨S_, .i32⟩
  | 96 => ⟨S3300000, .i32⟩
  | 97 => ⟨S3300000, .i32⟩
  | 98 => ⟨S3300000, .i32⟩
  | 99 => ⟨S3300000x1, .i32⟩
  | 100 => ⟨S3300000x64, .f32⟩
  | 101 => ⟨S3300000x64, .f32⟩
  | 102 => ⟨S3300000x64, .f32⟩
  | 103 => ⟨S_, .f32⟩
  | 104 => ⟨S100000x64, .f32⟩
  | 105 => ⟨S3300000x1, .i32⟩
  | 106 => ⟨S100000x64, .f32⟩
  | 107 => ⟨S1x64, .f32⟩
  | 108 => ⟨S100000x64, .f32⟩
  | 109 => ⟨S100000x64, .f32⟩
  | 110 => ⟨S_, .f32⟩
  | 111 => ⟨S100000x64, .f32⟩
  | 112 => ⟨S100000x64, .f32⟩
  | 113 => ⟨S_, .f32⟩
  | 114 => ⟨S256x64, .f32⟩
  | 115 => ⟨S100000x1, .i32⟩
  | 116 => ⟨S256x64, .f32⟩
  | 117 => ⟨S_, .f32⟩
  | 118 => ⟨S100000, .f32⟩
  | 119 => ⟨S_, .f32⟩
  | 120 => ⟨S256, .f32⟩
  | 121 => ⟨S100000x1, .i32⟩
  | 122 => ⟨S256, .f32⟩
  | 123 => ⟨S_, .f32⟩
  | 124 => ⟨S256, .f32⟩
  | 125 => ⟨S256, .f32⟩
  | 126 => ⟨S256x1, .f32⟩
  | 127 => ⟨S256x64, .f32⟩
  | _ => ⟨S100000x128, .f32⟩

abbrev hbmTy0_1 (i : Nat) : BufTy := match i % 128 with
  | 0 => ⟨S256x64, .f32⟩
  | 1 => ⟨S256x10, .f32⟩
  | 2 => ⟨S1x10, .f32⟩
  | 3 => ⟨S256x10, .f32⟩
  | 4 => ⟨S256x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_4 : Ref sig .tc := ⟨.hbm, 46, rfl⟩
abbrev main_v29 : Ref sig .tc := ⟨.hbm, 47, rfl⟩
abbrev main_v30 : Ref sig .tc := ⟨.hbm, 48, rfl⟩
abbrev main_c_5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_call0_cst : Ref sig .tc := ⟨.hbm, 64, rfl⟩
abbrev main_call0_v0 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_7 : Ref sig .tc := ⟨.hbm, 69, rfl⟩
abbrev main_v47 : Ref sig .tc := ⟨.hbm, 70, rfl⟩
abbrev main_v48 : Ref sig .tc := ⟨.hbm, 71, rfl⟩
abbrev main_c_8 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_9 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_call1_cst : Ref sig .tc := ⟨.hbm, 87, rfl⟩
abbrev main_call1_v0 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_10 : Ref sig .tc := ⟨.hbm, 92, rfl⟩
abbrev main_v65 : Ref sig .tc := ⟨.hbm, 93, rfl⟩
abbrev main_v66 : Ref sig .tc := ⟨.hbm, 94, rfl⟩
abbrev main_c_11 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_12 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_call2_cst : Ref sig .tc := ⟨.hbm, 110, rfl⟩
abbrev main_call2_v0 : Ref sig .tc := ⟨.hbm, 111, rfl⟩
abbrev main_v80 : Ref sig .tc := ⟨.hbm, 112, rfl⟩
abbrev main_cst_13 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_14 : Ref sig .tc := ⟨.hbm, 117, rfl⟩
abbrev main_v84 : Ref sig .tc := ⟨.hbm, 118, rfl⟩
abbrev main_cst_15 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_16 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S256x64 : S_.BroadcastsInDim S256x64 (![] : Fin 0 → Fin S256x64.rank)
  bcast_S100000_S100000x1_0 : S100000.BroadcastsInDim S100000x1 (![0] : Fin 1 → Fin S100000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  bcast_S10_S1x10_1 : S10.BroadcastsInDim S1x10 (![1] : Fin 1 → Fin S1x10.rank)
  bcast_S1x10_S256x10_0_1 : S1x10.BroadcastsInDim S256x10 (![0, 1] : Fin 2 → Fin S256x10.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x64_S100000x64_1_0_0_1_n_n_wf : DotDims.WF S100000x128 S128x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x64_S100000x64_1_0_0_1_n_n_wf : DotDims.WF S100000x64 S64x64 S100000x64 [1] [0] [0] [1] [] []
  scatter_S256x64_S100000x1_S100000x64_1_0_0_1_wf : ScatterDims.WF S256x64 S100000x1 S100000x64 [1] [0] [0] 1
  scatter_S256_S100000x1_S100000_n_0_0_1_wf : ScatterDims.WF S256 S100000x1 S100000 [] [0] [0] 1
  dot_S256x64_S64x10_S256x10_1_0_0_1_n_n_wf : DotDims.WF S256x64 S64x10 S256x10 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x64_S64x10_S256x10_1_0_0_1_n_n : DotDims S256x64 S64x10 S256x10 where
  lhsContracting := [1]
  rhsContracting := [0]
  lhsNonContracting := [0]
  rhsNonContracting := [1]
  lhsBatch := []
  rhsBatch := []
  wf := dot_S256x64_S64x10_S256x10_1_0_0_1_n_n_wf

class Facts : Prop extends Facts₀ where

variable [Facts]
-- ==== Proof.Spec.lean ====
/-
  The two programs' common mathematics, as functions of arrays.

  A three-layer graph convolution followed by a mean pool over graphs and a linear classifier. From the edge list
  `e : [2, E]` come the source and target node of every edge, the self loops appended (`srcOf`, `dstOf`), the
  inverse square root of every node's in-degree (`dinv`) and the symmetric weight of every edge (`normOf`: the
  product of the two end nodes' `dinv`, each read at its index wrapped once if negative). One layer (`layerOf`)
  takes the transformed features `h : [N, 64]`, gathers the row of each edge's source, scales it by the edge's weight,
  adds it into the row of the edge's target, adds the bias and clips at zero. The pool (`poolSum`) adds every node's
  row into the row of its graph; `poolDiv` divides by the graph's node count, at least one. The classifier is one more
  product and a bias. `finalSpec` composes them, the dense products written as the host's `dot_general`.
-/
import proofs.«405667_j8718783610906_1_alg».proof.ReferenceIdeal

noncomputable section

namespace Cert.Spec

open Cert.ReferenceIdeal Cert.ReferenceIdeal.Facts₀ Idealize.ShloMosaic

variable {F : FTy → Type} [FloatOps F] [Cert.ReferenceIdeal.Facts]

/-- A float array of shape `S`. -/
abbrev FA (F : FTy → Type) [FloatOps F] (S : Shape) : Type := (⟨S, .f32⟩ : BufTy).Contents (Elt F)
/-- A 32-bit integer array of shape `S`. -/
abbrev IA (F : FTy → Type) [FloatOps F] (S : Shape) : Type := (⟨S, .i32⟩ : BufTy).Contents (Elt F)

/-- Every edge's source node, then every node once (the self loops). -/
def srcOf (e : IA F S2x3200000) : IA F S3300000 :=
  concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0

/-- Every edge's target node, then every node once (the self loops). -/
def dstOf (e : IA F S2x3200000) : IA F S3300000 :=
  concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0

/-- A node index wrapped once: a negative one has the node count added. -/
def wrap (ix : IA F S3300000) : IA F S3300000 :=
  select (cmpi .slt ix (broadcastInDim S3300000 ![] bcast_S_S3300000 (constantI S_ 32 0#32))) (addi ix (broadcastInDim S3300000 ![] bcast_S_S3300000 (constantI S_ 32 100000#32))) ix

/-- The inverse square root of every node's in-degree (one per edge landing on it, self loop included). -/
def dinv (dst : IA F S3300000) : FA F S100000 :=
  Host.rsqrt (Host.scatterAdd scatter_S100000_S3300000x1_S3300000_n_0_0_1 (broadcastInDim S100000 ![] bcast_S_S100000 (constant S_ .f32 0x00000000#32)) (broadcastInDim S3300000x1 ![0] bcast_S3300000_S3300000x1_0 dst) (broadcastInDim S3300000 ![] bcast_S_S3300000 (constant S_ .f32 0x3F800000#32)))

/-- Every edge's weight: the product of its two end nodes' inverse square root degrees. -/
def normOfSD (src dst : IA F S3300000) : FA F S3300000 :=
  mulf (Host.gather gather_S100000_S3300000x1_S3300000_n_0_n_n_0_1_1 (dinv dst) (broadcastInDim S3300000x1 ![0] bcast_S3300000_S3300000x1_0 (wrap src))) (Host.gather gather_S100000_S3300000x1_S3300000_n_0_n_n_0_1_1 (dinv dst) (broadcastInDim S3300000x1 ![0] bcast_S3300000_S3300000x1_0 (wrap dst)))

/-- The edge weights of an edge list. -/
def normOf (e : IA F S2x3200000) : FA F S3300000 := normOfSD (srcOf e) (dstOf e)

/-- One layer's sum before the clip: the source rows gathered, weighted, added into the target rows; the bias added. -/
def preLayerOf (h : FA F S100000x64) (src dst : IA F S3300000) (nrm : FA F S3300000) (b : FA F S64) : FA F S100000x64 :=
  addf (Host.scatterAdd scatter_S100000x64_S3300000x1_S3300000x64_1_0_0_1 (broadcastInDim S100000x64 ![] bcast_S_S100000x64 (constant S_ .f32 0x00000000#32)) (broadcastInDim S3300000x1 ![0] bcast_S3300000_S3300000x1_0 dst) (mulf (broadcastInDim S3300000x64 ![0, 1] bcast_S3300000x1_S3300000x64_0_1 (broadcastInDim S3300000x1 ![0] bcast_S3300000_S3300000x1_0 nrm)) (Host.gather gather_S100000x64_S3300000x1_S3300000x64_1_0_n_n_0_1_164 h (broadcastInDim S3300000x1 ![0] bcast_S3300000_S3300000x1_0 (wrap src))))) (broadcastInDim S100000x64 ![0, 1] bcast_S1x64_S100000x64_0_1 (broadcastInDim S1x64 ![1] bcast_S64_S1x64_1 b))

/-- The clip at zero. -/
def clip0 (a : FA F S100000x64) : FA F S100000x64 :=
  maximumf a (broadcastInDim S100000x64 ![] bcast_S_S100000x64 (constant S_ .f32 0x00000000#32))

/-- One layer after its dense product: the sum, clipped at zero. -/
def layerOf (h : FA F S100000x64) (src dst : IA F S3300000) (nrm : FA F S3300000) (b : FA F S64) : FA F S100000x64 :=
  clip0 (preLayerOf h src dst nrm b)

/-- The layer of an edge list. -/
def layer (h : FA F S100000x64) (e : IA F S2x3200000) (b : FA F S64) : FA F S100000x64 :=
  layerOf h (srcOf e) (dstOf e) (normOf e) b

/-- The first dense product, `[N, 128] · [128, 64]`. -/
def mm0 (x : FA F S100000x128) (W : FA F S128x64) : FA F S100000x64 :=
  Host.dotGeneral dot_S100000x128_S128x64_S100000x64_1_0_0_1_n_n none x W

/-- The later dense products, `[N, 64] · [64, 64]`. -/
def mm1 (h : FA F S100000x64) (W : FA F S64x64) : FA F S100000x64 :=
  Host.dotGeneral dot_S100000x64_S64x64_S100000x64_1_0_0_1_n_n none h W

/-- The pool's sums over a COLUMN of graph indices: every node's row added into the row of its graph. -/
def poolSumCol (h : FA F S100000x64) (col : IA F S100000x1) : FA F S256x64 :=
  Host.scatterAdd scatter_S256x64_S100000x1_S100000x64_1_0_0_1 (broadcastInDim S256x64 ![] bcast_S_S256x64 (constant S_ .f32 0x00000000#32)) col h

/-- The pool's sums. -/
def poolSum (h : FA F S100000x64) (batch : IA F S100000) : FA F S256x64 :=
  poolSumCol h (broadcastInDim S100000x1 ![0] bcast_S100000_S100000x1_0 batch)

/-- The sums divided by each graph's node count, at least one. -/
def poolDiv (sums : FA F S256x64) (batch : IA F S100000) : FA F S256x64 :=
  Host.divf sums (broadcastInDim S256x64 ![0, 1] bcast_S256x1_S256x64_0_1 (broadcastInDim S256x1 ![0] bcast_S256_S256x1_0 (maximumf (Host.scatterAdd scatter_S256_S100000x1_S100000_n_0_0_1 (broadcastInDim S256 ![] bcast_S_S256 (constant S_ .f32 0x00000000#32)) (broadcastInDim S100000x1 ![0] bcast_S100000_S100000x1_0 batch) (broadcastInDim S100000 ![] bcast_S_S100000 (constant S_ .f32 0x3F800000#32))) (broadcastInDim S256 ![] bcast_S_S256 (constant S_ .f32 0x3F800000#32)))))

/-- The classifier: the pooled features times the class weights, plus the class bias. -/
def classify (p : FA F S256x64) (Wc : FA F S64x10) (bc : FA F S10) : FA F S256x10 :=
  addf (Host.dotGeneral dot_S256x64_S64x10_S256x10_1_0_0_1_n_n none p Wc) (broadcastInDim S256x10 ![0, 1] bcast_S1x10_S256x10_0_1 (broadcastInDim S1x10 ![1] bcast_S10_S1x10_1 bc))

/-- The whole network. -/
def finalSpec (x : FA F S100000x128) (e : IA F S2x3200000) (batch : IA F S100000) (W1 : FA F S128x64) (b1 : FA F S64)
    (W2 : FA F S64x64) (b2 : FA F S64) (W3 : FA F S64x64) (b3 : FA F S64) (Wc : FA F S64x10) (bc : FA F S10) : FA F S256x10 :=
  classify (poolDiv (poolSum (layer (mm1 (layer (mm1 (layer (mm0 x W1) e b1) W2) e b2) W3) e b3) batch) batch) Wc bc

end Cert.Spec

end
-- ==== Proof.Interfaces.lean ====
import proofs.«405667_j8718783610906_1_alg».proof.Proof.Gen.KernelIdeal.Frame
import proofs.«405667_j8718783610906_1_alg».proof.Proof.Gen.ReferenceIdeal
import proofs.«405667_j8718783610906_1_alg».proof.Proof.Spec
import Idealize.ShloMosaic.PureOps.Ideal

set_option maxRecDepth 16384

noncomputable section

namespace Cert.KernelIdeal.Chain

open Cert.KernelIdeal Cert.KernelIdeal.Gen Idealize.ShloMosaic Idealize.ShloMosaic.TcCoe
open Cert.Spec

/-- What each of the five kernel regions leaves in its output array, as a function of the arrays it found, whatever the
    buffer contents `V` at its entry: the three dense products, the pool's sums, the classifier. -/
structure RegionValues : Prop where
  r0 : ∀ (V : (c : Dev nD) → (b : Ref sig .tc) → Buf (Elt Ideal) ((c : Thread nD τ).loc b)) (c : Dev nD),
    (dat0 (F := Ideal) V c).arrAt 2 cfg0.N = mm0 (F := Ideal) (V c main_arg0) (V c main_arg3)
  r1 : ∀ (V : (c : Dev nD) → (b : Ref sig .tc) → Buf (Elt Ideal) ((c : Thread nD τ).loc b)) (c : Dev nD),
    (dat1 (F := Ideal) V c).arrAt 2 cfg1.N = mm1 (F := Ideal) (V c main_v44) (V c main_arg5)
  r2 : ∀ (V : (c : Dev nD) → (b : Ref sig .tc) → Buf (Elt Ideal) ((c : Thread nD τ).loc b)) (c : Dev nD),
    (dat2 (F := Ideal) V c).arrAt 2 cfg2.N = mm1 (F := Ideal) (V c main_v62) (V c main_arg7)
  r3 : ∀ (V : (c : Dev nD) → (b : Ref sig .tc) → Buf (Elt Ideal) ((c : Thread nD τ).loc b)) (c : Dev nD),
    (dat3 (F := Ideal) V c).arrAt 2 cfg3.N = poolSumCol (F := Ideal) (V c main_v80) (V c main_v81)
  r4 : ∀ (V : (c : Dev nD) → (b : Ref sig .tc) → Buf (Elt Ideal) ((c : Thread nD τ).loc b)) (c : Dev nD),
    (dat4 (F := Ideal) V c).arrAt 3 cfg4.N = classify (F := Ideal) (V c main_v91) (V c main_arg9) (V c main_arg10)

end Cert.KernelIdeal.Chain

end
-- ==== Proof.PassThrough.lean ====
import proofs.«405667_j8718783610906_1_alg».proof.Proof.Gen.KernelIdeal.Frame
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.ShloMosaic.StableHlo

variable {F : FTy → Type} [FloatOps F]
variable (m : (ℓ : Loc nD τ sig) → Buf (Elt F) ℓ) (ρ : Dev nD → PrngReg) (c : Dev nD)

/-- A buffer that no operation of a stretch of host operations writes keeps its contents across the stretch. -/
macro "not_written" : tactic =>
  `(tactic| (refine StableHlo.after_of_forall_not_mem _ _ (List.forall_iff_forall_mem.mp ?_)
             simp only [hostOps0, hostOps1, hostOps1_1, hostOps2, hostOps2_1, hostOps3, hostOps3_1, hostOps3_2, hostOps4,
               List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

theorem pass_1_0_main_arg0 : W1 m ρ c (Proc.devRef .tc main_arg0) = m ((c : Thread nD τ).loc main_arg0) := by
  refine Eq.trans (show StableHlo.after hostOps0 (W0 m ρ c) (Proc.devRef .tc main_arg0) = W0 m ρ c (Proc.devRef .tc main_arg0) by not_written) ?_
  rfl

theorem pass_1_0_main_arg3 : W1 m ρ c (Proc.devRef .tc main_arg3) = m ((c : Thread nD τ).loc main_arg3) := by
  refine Eq.trans (show StableHlo.after hostOps0 (W0 m ρ c) (Proc.devRef .tc main_arg3) = W0 m ρ c (Proc.devRef .tc main_arg3) by not_written) ?_
  rfl

theorem pass_2_0_main_arg4 : W2 m ρ c (Proc.devRef .tc main_arg4) = m ((c : Thread nD τ).loc main_arg4) := by
  refine Eq.trans (W2_of_ne m ρ c main_arg4 (by decide)) ?_
  refine Eq.trans (show StableHlo.after hostOps0 (W0 m ρ c) (Proc.devRef .tc main_arg4) = W0 m ρ c (Proc.devRef .tc main_arg4) by not_written) ?_
  rfl

theorem pass_4_0_main_arg5 : W4 m ρ c (Proc.devRef .tc main_arg5) = m ((c : Thread nD τ).loc main_arg5) := by
  refine Eq.trans (show StableHlo.after hostOps1_1 (W3 m ρ c) (Proc.devRef .tc main_arg5) = W3 m ρ c (Proc.devRef .tc main_arg5) by not_written) ?_
  refine Eq.trans (show StableHlo.after hostOps1 (W2 m ρ c) (Proc.devRef .tc main_arg5) = W2 m ρ c (Proc.devRef .tc main_arg5) by not_written) ?_
  refine Eq.trans (W2_of_ne m ρ c main_arg5 (by decide)) ?_
  refine Eq.trans (show StableHlo.after hostOps0 (W0 m ρ c) (Proc.devRef .tc main_arg5) = W0 m ρ c (Proc.devRef .tc main_arg5) by not_written) ?_
  rfl

theorem pass_5_0_main_arg6 : W5 m ρ c (Proc.devRef .tc main_arg6) = m ((c : Thread nD τ).loc main_arg6) := by
  refine Eq.trans (W5_of_ne m ρ c main_arg6 (by decide)) ?_
  refine Eq.trans (show StableHlo.after hostOps1_1 (W3 m ρ c) (Proc.devRef .tc main_arg6) = W3 m ρ c (Proc.devRef .tc main_arg6) by not_written) ?_
  refine Eq.trans (show StableHlo.after hostOps1 (W2 m ρ c) (Proc.devRef .tc main_arg6) = W2 m ρ c (Proc.devRef .tc main_arg6) by not_written) ?_
  refine Eq.trans (W2_of_ne m ρ c main_arg6 (by decide)) ?_
  refine Eq.trans (show StableHlo.after hostOps0 (W0 m ρ c) (Proc.devRef .tc main_arg6) = W0 m ρ c (Proc.devRef .tc main_arg6) by not_written) ?_
  rfl

theorem pass_7_0_main_arg7 : W7 m ρ c (Proc.devRef .tc main_arg7) = m ((c : Thread nD τ).loc main_arg7) := by
  refine Eq.trans (show StableHlo.after hostOps2_1 (W6 m ρ c) (Proc.devRef .tc main_arg7) = W6 m ρ c (Proc.devRef .tc main_arg7) by not_written) ?_
  refine Eq.trans (show StableHlo.after hostOps2 (W5 m ρ c) (Proc.devRef .tc main_arg7) = W5 m ρ c (Proc.devRef .tc main_arg7) by not_written) ?_
  refine Eq.trans (W5_of_ne m ρ c main_arg7 (by decide)) ?_
  refine Eq.trans (show StableHlo.after hostOps1_1 (W3 m ρ c) (Proc.devRef .tc main_arg7) = W3 m ρ c (Proc.devRef .tc main_arg7) by not_written) ?_
  refine Eq.trans (show StableHlo.after hostOps1 (W2 m ρ c) (Proc.devRef .tc main_arg7) = W2 m ρ c (Proc.devRef .tc main_arg7) by not_written) ?_
  refine Eq.trans (W2_of_ne m ρ c main_arg7 (by decide)) ?_
  refine Eq.trans (show StableHlo.after hostOps0 (W0 m ρ c) (Proc.devRef .tc main_arg7) = W0 m ρ c (Proc.devRef .tc main_arg7) by not_written) ?_
  rfl

theorem pass_8_0_main_arg8 : W8 m ρ c (Proc.devRef .tc main_arg8) = m ((c : Thread nD τ).loc main_arg8) := by
  refine Eq.trans (W8_of_ne m ρ c main_arg8 (by decide)) ?_
  refine Eq.trans (show StableHlo.after hostOps2_1 (W6 m ρ c) (Proc.devRef .tc main_arg8) = W6 m ρ c (Proc.devRef .tc main_arg8) by not_written) ?_
  refine Eq.trans (show StableHlo.after hostOps2 (W5 m ρ c) (Proc.devRef .tc main_arg8) = W5 m ρ c (Proc.devRef .tc main_arg8) by not_written) ?_
  refine Eq.trans (W5_of_ne m ρ c main_arg8 (by decide)) ?_
  refine Eq.trans (show StableHlo.after hostOps1_1 (W3 m ρ c) (Proc.devRef .tc main_arg8) = W3 m ρ c (Proc.devRef .tc main_arg8) by not_written) ?_
  refine Eq.trans (show StableHlo.after hostOps1 (W2 m ρ c) (Proc.devRef .tc main_arg8) = W2 m ρ c (Proc.devRef .tc main_arg8) by not_written) ?_
  refine Eq.trans (W2_of_ne m ρ c main_arg8 (by decide)) ?_
  refine Eq.trans (show StableHlo.after hostOps0 (W0 m ρ c) (Proc.devRef .tc main_arg8) = W0 m ρ c (Proc.devRef .tc main_arg8) by not_written) ?_
  rfl

theorem pass_10_0_main_arg2 : W10 m ρ c (Proc.devRef .tc main_arg2) = m ((c : Thread nD τ).loc main_arg2) := by
  refine Eq.trans (show StableHlo.after hostOps3_1 (W9 m ρ c) (Proc.devRef .tc main_arg2) = W9 m ρ c (Proc.devRef .tc main_arg2) by not_written) ?_
  refine Eq.trans (show StableHlo.after hostOps3 (W8 m ρ c) (Proc.devRef .tc main_arg2) = W8 m ρ c (Proc.devRef .tc main_arg2) by not_written) ?_
  refine Eq.trans (W8_of_ne m ρ c main_arg2 (by decide)) ?_
  refine Eq.trans (show StableHlo.after hostOps2_1 (W6 m ρ c) (Proc.devRef .tc main_arg2) = W6 m ρ c (Proc.devRef .tc main_arg2) by not_written) ?_
  refine Eq.trans (show StableHlo.after hostOps2 (W5 m ρ c) (Proc.devRef .tc main_arg2) = W5 m ρ c (Proc.devRef .tc main_arg2) by not_written) ?_
  refine Eq.trans (W5_of_ne m ρ c main_arg2 (by decide)) ?_
  refine Eq.trans (show StableHlo.after hostOps1_1 (W3 m ρ c) (Proc.devRef .tc main_arg2) = W3 m ρ c (Proc.devRef .tc main_arg2) by not_written) ?_
  refine Eq.trans (show StableHlo.after hostOps1 (W2 m ρ c) (Proc.devRef .tc main_arg2) = W2 m ρ c (Proc.devRef .tc main_arg2) by not_written) ?_
  refine Eq.trans (W2_of_ne m ρ c main_arg2 (by decide)) ?_
  refine Eq.trans (show StableHlo.after hostOps0 (W0 m ρ c) (Proc.devRef .tc main_arg2) = W0 m ρ c (Proc.devRef .tc main_arg2) by not_written) ?_
  rfl

theorem pass_12_0_main_arg2 : W12 m ρ c (Proc.devRef .tc main_arg2) = m ((c : Thread nD τ).loc main_arg2) := by
  refine Eq.trans (W12_of_ne m ρ c main_arg2 (by decide)) ?_
  refine Eq.trans (show StableHlo.after hostOps3_2 (W10 m ρ c) (Proc.devRef .tc main_arg2) = W10 m ρ c (Proc.devRef .tc main_arg2) by not_written) ?_
  refine Eq.trans (show StableHlo.after hostOps3_1 (W9 m ρ c) (Proc.devRef .tc main_arg2) = W9 m ρ c (Proc.devRef .tc main_arg2) by not_written) ?_
  refine Eq.trans (show StableHlo.after hostOps3 (W8 m ρ c) (Proc.devRef .tc main_arg2) = W8 m ρ c (Proc.devRef .tc main_arg2) by not_written) ?_
  refine Eq.trans (W8_of_ne m ρ c main_arg2 (by decide)) ?_
  refine Eq.trans (show StableHlo.after hostOps2_1 (W6 m ρ c) (Proc.devRef .tc main_arg2) = W6 m ρ c (Proc.devRef .tc main_arg2) by not_written) ?_
  refine Eq.trans (show StableHlo.after hostOps2 (W5 m ρ c) (Proc.devRef .tc main_arg2) = W5 m ρ c (Proc.devRef .tc main_arg2) by not_written) ?_
  refine Eq.trans (W5_of_ne m ρ c main_arg2 (by decide)) ?_
  refine Eq.trans (show StableHlo.after hostOps1_1 (W3 m ρ c) (Proc.devRef .tc main_arg2) = W3 m ρ c (Proc.devRef .tc main_arg2) by not_written) ?_
  refine Eq.trans (show StableHlo.after hostOps1 (W2 m ρ c) (Proc.devRef .tc main_arg2) = W2 m ρ c (Proc.devRef .tc main_arg2) by not_written) ?_
  refine Eq.trans (W2_of_ne m ρ c main_arg2 (by decide)) ?_
  refine Eq.trans (show StableHlo.after hostOps0 (W0 m ρ c) (Proc.devRef .tc main_arg2) = W0 m ρ c (Proc.devRef .tc main_arg2) by not_written) ?_
  rfl

theorem pass_13_0_main_arg9 : W13 m ρ c (Proc.devRef .tc main_arg9) = m ((c : Thread nD τ).loc main_arg9) := by
  refine Eq.trans (show StableHlo.after hostOps4 (W12 m ρ c) (Proc.devRef .tc main_arg9) = W12 m ρ c (Proc.devRef .tc main_arg9) by not_written) ?_
  refine Eq.trans (W12_of_ne m ρ c main_arg9 (by decide)) ?_
  refine Eq.trans (show StableHlo.after hostOps3_2 (W10 m ρ c) (Proc.devRef .tc main_arg9) = W10 m ρ c (Proc.devRef .tc main_arg9) by not_written) ?_
  refine Eq.trans (show StableHlo.after hostOps3_1 (W9 m ρ c) (Proc.devRef .tc main_arg9) = W9 m ρ c (Proc.devRef .tc main_arg9) by not_written) ?_
  refine Eq.trans (show StableHlo.after hostOps3 (W8 m ρ c) (Proc.devRef .tc main_arg9) = W8 m ρ c (Proc.devRef .tc main_arg9) by not_written) ?_
  refine Eq.trans (W8_of_ne m ρ c main_arg9 (by decide)) ?_
  refine Eq.trans (show StableHlo.after hostOps2_1 (W6 m ρ c) (Proc.devRef .tc main_arg9) = W6 m ρ c (Proc.devRef .tc main_arg9) by not_written) ?_
  refine Eq.trans (show StableHlo.after hostOps2 (W5 m ρ c) (Proc.devRef .tc main_arg9) = W5 m ρ c (Proc.devRef .tc main_arg9) by not_written) ?_
  refine Eq.trans (W5_of_ne m ρ c main_arg9 (by decide)) ?_
  refine Eq.trans (show StableHlo.after hostOps1_1 (W3 m ρ c) (Proc.devRef .tc main_arg9) = W3 m ρ c (Proc.devRef .tc main_arg9) by not_written) ?_
  refine Eq.trans (show StableHlo.after hostOps1 (W2 m ρ c) (Proc.devRef .tc main_arg9) = W2 m ρ c (Proc.devRef .tc main_arg9) by not_written) ?_
  refine Eq.trans (W2_of_ne m ρ c main_arg9 (by decide)) ?_
  refine Eq.trans (show StableHlo.after hostOps0 (W0 m ρ c) (Proc.devRef .tc main_arg9) = W0 m ρ c (Proc.devRef .tc main_arg9) by not_written) ?_
  rfl

theorem pass_13_0_main_arg10 : W13 m ρ c (Proc.devRef .tc main_arg10) = m ((c : Thread nD τ).loc main_arg10) := by
  refine Eq.trans (show StableHlo.after hostOps4 (W12 m ρ c) (Proc.devRef .tc main_arg10) = W12 m ρ c (Proc.devRef .tc main_arg10) by not_written) ?_
  refine Eq.trans (W12_of_ne m ρ c main_arg10 (by decide)) ?_
  refine Eq.trans (show StableHlo.after hostOps3_2 (W10 m ρ c) (Proc.devRef .tc main_arg10) = W10 m ρ c (Proc.devRef .tc main_arg10) by not_written) ?_
  refine Eq.trans (show StableHlo.after hostOps3_1 (W9 m ρ c) (Proc.devRef .tc main_arg10) = W9 m ρ c (Proc.devRef .tc main_arg10) by not_written) ?_
  refine Eq.trans (show StableHlo.after hostOps3 (W8 m ρ c) (Proc.devRef .tc main_arg10) = W8 m ρ c (Proc.devRef .tc main_arg10) by not_written) ?_
  refine Eq.trans (W8_of_ne m ρ c main_arg10 (by decide)) ?_
  refine Eq.trans (show StableHlo.after hostOps2_1 (W6 m ρ c) (Proc.devRef .tc main_arg10) = W6 m ρ c (Proc.devRef .tc main_arg10) by not_written) ?_
  refine Eq.trans (show StableHlo.after hostOps2 (W5 m ρ c) (Proc.devRef .tc main_arg10) = W5 m ρ c (Proc.devRef .tc main_arg10) by not_written) ?_
  refine Eq.trans (W5_of_ne m ρ c main_arg10 (by decide)) ?_
  refine Eq.trans (show StableHlo.after hostOps1_1 (W3 m ρ c) (Proc.devRef .tc main_arg10) = W3 m ρ c (Proc.devRef .tc main_arg10) by not_written) ?_
  refine Eq.trans (show StableHlo.after hostOps1 (W2 m ρ c) (Proc.devRef .tc main_arg10) = W2 m ρ c (Proc.devRef .tc main_arg10) by not_written) ?_
  refine Eq.trans (W2_of_ne m ρ c main_arg10 (by decide)) ?_
  refine Eq.trans (show StableHlo.after hostOps0 (W0 m ρ c) (Proc.devRef .tc main_arg10) = W0 m ρ c (Proc.devRef .tc main_arg10) by not_written) ?_
  rfl

theorem pass_2_1_main_v3 : W2 m ρ c (Proc.devRef .tc main_v3) = W1 m ρ c (Proc.devRef .tc main_v3) := by
  refine Eq.trans (W2_of_ne m ρ c main_v3 (by decide)) ?_
  rfl

theorem pass_2_1_main_v6 : W2 m ρ c (Proc.devRef .tc main_v6) = W1 m ρ c (Proc.devRef .tc main_v6) := by
  refine Eq.trans (W2_of_ne m ρ c main_v6 (by decide)) ?_
  rfl

theorem pass_2_1_main_v26 : W2 m ρ c (Proc.devRef .tc main_v26) = W1 m ρ c (Proc.devRef .tc main_v26) := by
  refine Eq.trans (W2_of_ne m ρ c main_v26 (by decide)) ?_
  rfl

theorem pass_5_2_main_v3 : W5 m ρ c (Proc.devRef .tc main_v3) = W2 m ρ c (Proc.devRef .tc main_v3) := by
  refine Eq.trans (W5_of_ne m ρ c main_v3 (by decide)) ?_
  refine Eq.trans (show StableHlo.after hostOps1_1 (W3 m ρ c) (Proc.devRef .tc main_v3) = W3 m ρ c (Proc.devRef .tc main_v3) by not_written) ?_
  refine Eq.trans (show StableHlo.after hostOps1 (W2 m ρ c) (Proc.devRef .tc main_v3) = W2 m ρ c (Proc.devRef .tc main_v3) by not_written) ?_
  rfl

theorem pass_5_2_main_v6 : W5 m ρ c (Proc.devRef .tc main_v6) = W2 m ρ c (Proc.devRef .tc main_v6) := by
  refine Eq.trans (W5_of_ne m ρ c main_v6 (by decide)) ?_
  refine Eq.trans (show StableHlo.after hostOps1_1 (W3 m ρ c) (Proc.devRef .tc main_v6) = W3 m ρ c (Proc.devRef .tc main_v6) by not_written) ?_
  refine Eq.trans (show StableHlo.after hostOps1 (W2 m ρ c) (Proc.devRef .tc main_v6) = W2 m ρ c (Proc.devRef .tc main_v6) by not_written) ?_
  rfl

theorem pass_5_2_main_v26 : W5 m ρ c (Proc.devRef .tc main_v26) = W2 m ρ c (Proc.devRef .tc main_v26) := by
  refine Eq.trans (W5_of_ne m ρ c main_v26 (by decide)) ?_
  refine Eq.trans (show StableHlo.after hostOps1_1 (W3 m ρ c) (Proc.devRef .tc main_v26) = W3 m ρ c (Proc.devRef .tc main_v26) by not_written) ?_
  refine Eq.trans (show StableHlo.after hostOps1 (W2 m ρ c) (Proc.devRef .tc main_v26) = W2 m ρ c (Proc.devRef .tc main_v26) by not_written) ?_
  rfl

theorem pass_8_5_main_v3 : W8 m ρ c (Proc.devRef .tc main_v3) = W5 m ρ c (Proc.devRef .tc main_v3) := by
  refine Eq.trans (W8_of_ne m ρ c main_v3 (by decide)) ?_
  refine Eq.trans (show StableHlo.after hostOps2_1 (W6 m ρ c) (Proc.devRef .tc main_v3) = W6 m ρ c (Proc.devRef .tc main_v3) by not_written) ?_
  refine Eq.trans (show StableHlo.after hostOps2 (W5 m ρ c) (Proc.devRef .tc main_v3) = W5 m ρ c (Proc.devRef .tc main_v3) by not_written) ?_
  rfl

theorem pass_8_5_main_v6 : W8 m ρ c (Proc.devRef .tc main_v6) = W5 m ρ c (Proc.devRef .tc main_v6) := by
  refine Eq.trans (W8_of_ne m ρ c main_v6 (by decide)) ?_
  refine Eq.trans (show StableHlo.after hostOps2_1 (W6 m ρ c) (Proc.devRef .tc main_v6) = W6 m ρ c (Proc.devRef .tc main_v6) by not_written) ?_
  refine Eq.trans (show StableHlo.after hostOps2 (W5 m ρ c) (Proc.devRef .tc main_v6) = W5 m ρ c (Proc.devRef .tc main_v6) by not_written) ?_
  rfl

theorem pass_8_5_main_v26 : W8 m ρ c (Proc.devRef .tc main_v26) = W5 m ρ c (Proc.devRef .tc main_v26) := by
  refine Eq.trans (W8_of_ne m ρ c main_v26 (by decide)) ?_
  refine Eq.trans (show StableHlo.after hostOps2_1 (W6 m ρ c) (Proc.devRef .tc main_v26) = W6 m ρ c (Proc.devRef .tc main_v26) by not_written) ?_
  refine Eq.trans (show StableHlo.after hostOps2 (W5 m ρ c) (Proc.devRef .tc main_v26) = W5 m ρ c (Proc.devRef .tc main_v26) by not_written) ?_
  rfl

theorem pass_11_10_main_v80 : W11 m ρ c (Proc.devRef .tc main_v80) = W10 m ρ c (Proc.devRef .tc main_v80) := by
  refine Eq.trans (show StableHlo.after hostOps3_2 (W10 m ρ c) (Proc.devRef .tc main_v80) = W10 m ρ c (Proc.devRef .tc main_v80) by not_written) ?_
  rfl

end Cert.KernelIdeal.Chain

end
-- ==== Proof.LayerSteps.lean ====
import proofs.«405667_j8718783610906_1_alg».proof.Proof.Gen.KernelIdeal.Frame
import proofs.«405667_j8718783610906_1_alg».proof.Proof.Gen.ReferenceIdeal
import proofs.«405667_j8718783610906_1_alg».proof.Proof.Spec
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.ShloMosaic.StableHlo
open Cert.Spec

variable {F : FTy → Type} [FloatOps F]
variable (m : (ℓ : Loc nD τ sig) → Buf (Elt F) ℓ) (ρ : Dev nD → PrngReg) (c : Dev nD)

/-- The sum of layer 1 before the clip, over what the boundary before holds. -/
theorem presum_1 : W3 m ρ c (Proc.devRef .tc main_v43)
    = preLayerOf (F := F) (W2 m ρ c (Proc.devRef .tc main_v27)) (W2 m ρ c (Proc.devRef .tc main_v3)) (W2 m ρ c (Proc.devRef .tc main_v6))
        (W2 m ρ c (Proc.devRef .tc main_v26)) (W2 m ρ c (Proc.devRef .tc main_arg4)) := by
  show StableHlo.after hostOps1 (W2 m ρ c) (Proc.devRef .tc main_v43) = _
  after_results_simp
  rfl

/-- The clip of layer 1. -/
theorem clip_1 : W4 m ρ c (Proc.devRef .tc main_v44) = clip0 (F := F) (W3 m ρ c (Proc.devRef .tc main_v43)) := by
  show StableHlo.after hostOps1_1 (W3 m ρ c) (Proc.devRef .tc main_v44) = _
  after_results_simp
  rfl

/-- The sum of layer 2 before the clip, over what the boundary before holds. -/
theorem presum_2 : W6 m ρ c (Proc.devRef .tc main_v61)
    = preLayerOf (F := F) (W5 m ρ c (Proc.devRef .tc main_v45)) (W5 m ρ c (Proc.devRef .tc main_v3)) (W5 m ρ c (Proc.devRef .tc main_v6))
        (W5 m ρ c (Proc.devRef .tc main_v26)) (W5 m ρ c (Proc.devRef .tc main_arg6)) := by
  show StableHlo.after hostOps2 (W5 m ρ c) (Proc.devRef .tc main_v61) = _
  after_results_simp
  rfl

/-- The clip of layer 2. -/
theorem clip_2 : W7 m ρ c (Proc.devRef .tc main_v62) = clip0 (F := F) (W6 m ρ c (Proc.devRef .tc main_v61)) := by
  show StableHlo.after hostOps2_1 (W6 m ρ c) (Proc.devRef .tc main_v62) = _
  after_results_simp
  rfl

/-- The sum of layer 3 before the clip, over what the boundary before holds. -/
theorem presum_3 : W9 m ρ c (Proc.devRef .tc main_v79)
    = preLayerOf (F := F) (W8 m ρ c (Proc.devRef .tc main_v63)) (W8 m ρ c (Proc.devRef .tc main_v3)) (W8 m ρ c (Proc.devRef .tc main_v6))
        (W8 m ρ c (Proc.devRef .tc main_v26)) (W8 m ρ c (Proc.devRef .tc main_arg8)) := by
  show StableHlo.after hostOps3 (W8 m ρ c) (Proc.devRef .tc main_v79) = _
  after_results_simp
  rfl

/-- The clip of layer 3. -/
theorem clip_3 : W10 m ρ c (Proc.devRef .tc main_v80) = clip0 (F := F) (W9 m ρ c (Proc.devRef .tc main_v79)) := by
  show StableHlo.after hostOps3_1 (W9 m ρ c) (Proc.devRef .tc main_v80) = _
  after_results_simp
  rfl

end Cert.KernelIdeal.Chain

end
-- ==== Proof.HostSteps.lean ====
import proofs.«405667_j8718783610906_1_alg».proof.Proof.Gen.KernelIdeal.Frame
import proofs.«405667_j8718783610906_1_alg».proof.Proof.Gen.ReferenceIdeal
import proofs.«405667_j8718783610906_1_alg».proof.Proof.Spec
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.ShloMosaic.StableHlo
open Cert.Spec

variable {F : FTy → Type} [FloatOps F]
variable (m : (ℓ : Loc nD τ sig) → Buf (Elt F) ℓ) (ρ : Dev nD → PrngReg) (c : Dev nD)

/-! ## The stretches of host operations outside the layers, at any float instance

The first stretch computes, from the edge list alone, every edge's source and target node and its weight. The
stretch before the pool recasts the graph indices as a column. The last stretch divides the pool's sums by the graphs'
node counts. Each is read off the fold of its operations and is, term for term, the specification's function. -/

theorem W1_v3 : W1 m ρ c (Proc.devRef .tc main_v3) = srcOf (F := F) (m ((c : Thread nD τ).loc main_arg1)) := by
  show StableHlo.after hostOps0 (W0 m ρ c) (Proc.devRef .tc main_v3) = _
  after_results_simp
  rfl

theorem W1_v6 : W1 m ρ c (Proc.devRef .tc main_v6) = dstOf (F := F) (m ((c : Thread nD τ).loc main_arg1)) := by
  show StableHlo.after hostOps0 (W0 m ρ c) (Proc.devRef .tc main_v6) = _
  after_results_simp
  rfl

theorem W1_v26 : W1 m ρ c (Proc.devRef .tc main_v26) = normOf (F := F) (m ((c : Thread nD τ).loc main_arg1)) := by
  show StableHlo.after hostOps0 (W0 m ρ c) (Proc.devRef .tc main_v26) = _
  after_results_simp
  rfl

/-- The graph indices recast as a column. -/
theorem W11_v81_cast : W11 m ρ c (Proc.devRef .tc main_v81)
    = shapeCast S100000x1 (W10 m ρ c (Proc.devRef .tc main_arg2)) Cert.KernelIdeal.Facts₀.shapeCasts_S100000_S100000x1 := by
  show StableHlo.after hostOps3_2 (W10 m ρ c) (Proc.devRef .tc main_v81) = _
  after_results_simp
  rfl

/-- The last stretch of host operations divides the sums by the graphs' node counts. -/
theorem W13_v91_div : W13 m ρ c (Proc.devRef .tc main_v91)
    = poolDiv (F := F) (W12 m ρ c (Proc.devRef .tc main_v82)) (W12 m ρ c (Proc.devRef .tc main_arg2)) := by
  show StableHlo.after hostOps4 (W12 m ρ c) (Proc.devRef .tc main_v91) = _
  after_results_simp
  rfl

end Cert.KernelIdeal.Chain

end
-- ==== Proof.Chain.lean ====
import proofs.«405667_j8718783610906_1_alg».proof.Proof.Interfaces
import proofs.«405667_j8718783610906_1_alg».proof.Proof.PassThrough
import proofs.«405667_j8718783610906_1_alg».proof.Proof.LayerSteps
import proofs.«405667_j8718783610906_1_alg».proof.Proof.HostSteps
import Idealize.ShloMosaic.Lib.Pipeline.Value
import Idealize.ShloMosaic.Lib.ValueIdx

set_option maxRecDepth 16384

noncomputable section

namespace Cert.KernelIdeal.Chain

open Cert.KernelIdeal Cert.KernelIdeal.Gen Idealize.ShloMosaic Idealize.ShloMosaic.TcCoe Idealize.ShloMosaic.StableHlo
open Cert.Spec

/-! # The kernel program's result, boundary by boundary

At the ideal instance, given what each of the five regions leaves (`RegionValues`), the buffer contents at every
segment boundary of @main are followed from the launch to the return: the edge list's nodes and weights after the
first stretch of host operations; after each product's region the product; after each layer's host operations the
layer; after the pool's region the sums; after the last stretch the quotients; after the classifier's region the
result. Every buffer a later segment reads is carried across the segments between, which do not write it. -/

variable (R : RegionValues) (m : (ℓ : Loc nD τ sig) → Buf (Elt Ideal) ℓ) (ρ : Dev nD → PrngReg) (c : Dev nD)

/-! ## The edge list's nodes and weights, wherever a layer reads them -/

theorem W2_v3 : W2 m ρ c (Proc.devRef .tc main_v3) = srcOf (F := Ideal) (m ((c : Thread nD τ).loc main_arg1)) := (pass_2_1_main_v3 m ρ c).trans (W1_v3 m ρ c)
theorem W2_v6 : W2 m ρ c (Proc.devRef .tc main_v6) = dstOf (F := Ideal) (m ((c : Thread nD τ).loc main_arg1)) := (pass_2_1_main_v6 m ρ c).trans (W1_v6 m ρ c)
theorem W2_v26 : W2 m ρ c (Proc.devRef .tc main_v26) = normOf (F := Ideal) (m ((c : Thread nD τ).loc main_arg1)) := (pass_2_1_main_v26 m ρ c).trans (W1_v26 m ρ c)
theorem W5_v3 : W5 m ρ c (Proc.devRef .tc main_v3) = srcOf (F := Ideal) (m ((c : Thread nD τ).loc main_arg1)) := (pass_5_2_main_v3 m ρ c).trans (W2_v3 m ρ c)
theorem W5_v6 : W5 m ρ c (Proc.devRef .tc main_v6) = dstOf (F := Ideal) (m ((c : Thread nD τ).loc main_arg1)) := (pass_5_2_main_v6 m ρ c).trans (W2_v6 m ρ c)
theorem W5_v26 : W5 m ρ c (Proc.devRef .tc main_v26) = normOf (F := Ideal) (m ((c : Thread nD τ).loc main_arg1)) := (pass_5_2_main_v26 m ρ c).trans (W2_v26 m ρ c)
theorem W8_v3 : W8 m ρ c (Proc.devRef .tc main_v3) = srcOf (F := Ideal) (m ((c : Thread nD τ).loc main_arg1)) := (pass_8_5_main_v3 m ρ c).trans (W5_v3 m ρ c)
theorem W8_v6 : W8 m ρ c (Proc.devRef .tc main_v6) = dstOf (F := Ideal) (m ((c : Thread nD τ).loc main_arg1)) := (pass_8_5_main_v6 m ρ c).trans (W5_v6 m ρ c)
theorem W8_v26 : W8 m ρ c (Proc.devRef .tc main_v26) = normOf (F := Ideal) (m ((c : Thread nD τ).loc main_arg1)) := (pass_8_5_main_v26 m ρ c).trans (W5_v26 m ρ c)

/-- A layer is its sum clipped. -/
theorem layer_eq (h : FA Ideal Cert.ReferenceIdeal.S100000x64) (e : IA Ideal Cert.ReferenceIdeal.S2x3200000) (b : FA Ideal Cert.ReferenceIdeal.S64) :
    clip0 (F := Ideal) (preLayerOf (F := Ideal) h (srcOf e) (dstOf e) (normOf e) b) = layer (F := Ideal) h e b := rfl

/-! ## The first product and the first layer -/

include R in
theorem W2_v27 : W2 m ρ c (Proc.devRef .tc main_v27) = mm0 (F := Ideal) (m ((c : Thread nD τ).loc main_arg0)) (m ((c : Thread nD τ).loc main_arg3)) := by
  refine (W2_arr m ρ c 2).trans ?_
  refine (R.r0 (V1 m ρ) c).trans ?_
  show mm0 (F := Ideal) (W1 m ρ c (Proc.devRef .tc main_arg0)) (W1 m ρ c (Proc.devRef .tc main_arg3)) = _
  rw [pass_1_0_main_arg0, pass_1_0_main_arg3]

include R in
theorem W4_v44 : W4 m ρ c (Proc.devRef .tc main_v44) = layer (F := Ideal) (mm0 (F := Ideal) (m ((c : Thread nD τ).loc main_arg0)) (m ((c : Thread nD τ).loc main_arg3))) (m ((c : Thread nD τ).loc main_arg1)) (m ((c : Thread nD τ).loc main_arg4)) := by
  rw [clip_1, presum_1, W2_v27 R, W2_v3, W2_v6, W2_v26, pass_2_0_main_arg4]
  exact layer_eq _ _ _

/-! ## The second product and the second layer -/

include R in
theorem W5_v45 : W5 m ρ c (Proc.devRef .tc main_v45) = mm1 (F := Ideal) (layer (F := Ideal) (mm0 (F := Ideal) (m ((c : Thread nD τ).loc main_arg0)) (m ((c : Thread nD τ).loc main_arg3))) (m ((c : Thread nD τ).loc main_arg1)) (m ((c : Thread nD τ).loc main_arg4))) (m ((c : Thread nD τ).loc main_arg5)) := by
  refine (W5_arr m ρ c 2).trans ?_
  refine (R.r1 (V4 m ρ) c).trans ?_
  show mm1 (F := Ideal) (W4 m ρ c (Proc.devRef .tc main_v44)) (W4 m ρ c (Proc.devRef .tc main_arg5)) = _
  rw [W4_v44 R, pass_4_0_main_arg5]

include R in
theorem W7_v62 : W7 m ρ c (Proc.devRef .tc main_v62) = layer (F := Ideal) (mm1 (F := Ideal) (layer (F := Ideal) (mm0 (F := Ideal) (m ((c : Thread nD τ).loc main_arg0)) (m ((c : Thread nD τ).loc main_arg3))) (m ((c : Thread nD τ).loc main_arg1)) (m ((c : Thread nD τ).loc main_arg4))) (m ((c : Thread nD τ).loc main_arg5))) (m ((c : Thread nD τ).loc main_arg1)) (m ((c : Thread nD τ).loc main_arg6)) := by
  rw [clip_2, presum_2, W5_v45 R, W5_v3, W5_v6, W5_v26, pass_5_0_main_arg6]
  exact layer_eq _ _ _

/-! ## The third product and the third layer -/

include R in
theorem W8_v63 : W8 m ρ c (Proc.devRef .tc main_v63) = mm1 (F := Ideal) (layer (F := Ideal) (mm1 (F := Ideal) (layer (F := Ideal) (mm0 (F := Ideal) (m ((c : Thread nD τ).loc main_arg0)) (m ((c : Thread nD τ).loc main_arg3))) (m ((c : Thread nD τ).loc main_arg1)) (m ((c : Thread nD τ).loc main_arg4))) (m ((c : Thread nD τ).loc main_arg5))) (m ((c : Thread nD τ).loc main_arg1)) (m ((c : Thread nD τ).loc main_arg6))) (m ((c : Thread nD τ).loc main_arg7)) := by
  refine (W8_arr m ρ c 2).trans ?_
  refine (R.r2 (V7 m ρ) c).trans ?_
  show mm1 (F := Ideal) (W7 m ρ c (Proc.devRef .tc main_v62)) (W7 m ρ c (Proc.devRef .tc main_arg7)) = _
  rw [W7_v62 R, pass_7_0_main_arg7]

include R in
theorem W10_v80 : W10 m ρ c (Proc.devRef .tc main_v80) = layer (F := Ideal) (mm1 (F := Ideal) (layer (F := Ideal) (mm1 (F := Ideal) (layer (F := Ideal) (mm0 (F := Ideal) (m ((c : Thread nD τ).loc main_arg0)) (m ((c : Thread nD τ).loc main_arg3))) (m ((c : Thread nD τ).loc main_arg1)) (m ((c : Thread nD τ).loc main_arg4))) (m ((c : Thread nD τ).loc main_arg5))) (m ((c : Thread nD τ).loc main_arg1)) (m ((c : Thread nD τ).loc main_arg6))) (m ((c : Thread nD τ).loc main_arg7))) (m ((c : Thread nD τ).loc main_arg1)) (m ((c : Thread nD τ).loc main_arg8)) := by
  rw [clip_3, presum_3, W8_v63 R, W8_v3, W8_v6, W8_v26, pass_8_0_main_arg8]
  exact layer_eq _ _ _

/-! ## The pool -/

/-- A vector recast as a column and the same vector broadcast along a new unit axis are one column: both read the
    vector at the row. -/
theorem column_eq {α : Type} (b : Cert.ReferenceIdeal.S100000.Idx → α) (h : Cert.ReferenceIdeal.S100000.ShapeCasts Cert.ReferenceIdeal.S100000x1)
    (h' : Cert.ReferenceIdeal.S100000.BroadcastsInDim Cert.ReferenceIdeal.S100000x1 (![0] : Fin 1 → Fin 2)) :
    shapeCast Cert.ReferenceIdeal.S100000x1 b h = broadcastInDim Cert.ReferenceIdeal.S100000x1 ![0] h' b := by
  funext j
  have h1 : (j 1).val = 0 := by have := (j 1).isLt; simp at this; omega
  have hlt : (j 0).val < 100000 := (j 0).isLt
  rw [shapeCast_apply b h j (ValueIdx.ix1 (⟨(j 0).val, hlt⟩ : Fin 100000)) (by
      rw [Shape.rowMajor_val_one, Shape.rowMajor_val_two, h1]
      show (j 0).val = (j 0).val * 1 + 0
      omega),
    broadcastInDim_apply ![0] h' b j (ValueIdx.ix1 (⟨(j 0).val, hlt⟩ : Fin 100000)) (by
      intro a
      match a with
      | ⟨0, _⟩ => rfl)]

include R in
theorem W12_v82 : W12 m ρ c (Proc.devRef .tc main_v82) = poolSum (F := Ideal) (layer (F := Ideal) (mm1 (F := Ideal) (layer (F := Ideal) (mm1 (F := Ideal) (layer (F := Ideal) (mm0 (F := Ideal) (m ((c : Thread nD τ).loc main_arg0)) (m ((c : Thread nD τ).loc main_arg3))) (m ((c : Thread nD τ).loc main_arg1)) (m ((c : Thread nD τ).loc main_arg4))) (m ((c : Thread nD τ).loc main_arg5))) (m ((c : Thread nD τ).loc main_arg1)) (m ((c : Thread nD τ).loc main_arg6))) (m ((c : Thread nD τ).loc main_arg7))) (m ((c : Thread nD τ).loc main_arg1)) (m ((c : Thread nD τ).loc main_arg8))) (m ((c : Thread nD τ).loc main_arg2)) := by
  refine (W12_arr m ρ c 2).trans ?_
  refine (R.r3 (V11 m ρ) c).trans ?_
  show poolSumCol (F := Ideal) (W11 m ρ c (Proc.devRef .tc main_v80)) (W11 m ρ c (Proc.devRef .tc main_v81)) = _
  rw [pass_11_10_main_v80, W10_v80 R, W11_v81_cast, pass_10_0_main_arg2]
  exact congrArg (poolSumCol (F := Ideal) _) (column_eq _ _ _)

include R in
theorem W13_v91 : W13 m ρ c (Proc.devRef .tc main_v91) = poolDiv (F := Ideal) (poolSum (F := Ideal) (layer (F := Ideal) (mm1 (F := Ideal) (layer (F := Ideal) (mm1 (F := Ideal) (layer (F := Ideal) (mm0 (F := Ideal) (m ((c : Thread nD τ).loc main_arg0)) (m ((c : Thread nD τ).loc main_arg3))) (m ((c : Thread nD τ).loc main_arg1)) (m ((c : Thread nD τ).loc main_arg4))) (m ((c : Thread nD τ).loc main_arg5))) (m ((c : Thread nD τ).loc main_arg1)) (m ((c : Thread nD τ).loc main_arg6))) (m ((c : Thread nD τ).loc main_arg7))) (m ((c : Thread nD τ).loc main_arg1)) (m ((c : Thread nD τ).loc main_arg8))) (m ((c : Thread nD τ).loc main_arg2))) (m ((c : Thread nD τ).loc main_arg2)) := by
  rw [W13_v91_div, W12_v82 R, pass_12_0_main_arg2]

/-! ## The classifier -/

include R in
/-- THE KERNEL'S RESULT: after the classifier's region the result array holds the whole network of the arguments. -/
theorem W14_v92 : W14 m ρ c (Proc.devRef .tc main_v92)
    = finalSpec (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W14_arr m ρ c 3).trans ?_
  refine (R.r4 (V13 m ρ) c).trans ?_
  show classify (F := Ideal) (W13 m ρ c (Proc.devRef .tc main_v91)) (W13 m ρ c (Proc.devRef .tc main_arg9)) (W13 m ρ c (Proc.devRef .tc main_arg10)) = _
  rw [W13_v91 R, pass_13_0_main_arg9, pass_13_0_main_arg10]
  rfl

end Cert.KernelIdeal.Chain

end
-- ==== Proof.RefValue.lean ====
import proofs.«405667_j8718783610906_1_alg».proof.Proof.Gen.ReferenceIdeal.Run
import proofs.«405667_j8718783610906_1_alg».proof.Proof.Gen.ReferenceIdeal.Read
import proofs.«405667_j8718783610906_1_alg».proof.Proof.Spec
import Idealize.ShloMosaic.PureOps.Ideal

set_option maxRecDepth 16384

noncomputable section

namespace Cert.ReferenceIdeal.RefValue

open Cert.ReferenceIdeal Cert.ReferenceIdeal.Gen Idealize.ShloMosaic Idealize.ShloMosaic.TcCoe
open Cert.Spec

/-- The reference's result, the composed term of its host operations, is the network of `Spec` applied to the
    argument arrays: the same operations in the same order, the shared pieces (the edges' nodes and weights, the three
    layers, the pool) named. -/
theorem result_eq (m : (ℓ : Loc nD τ sig) → Buf (Elt Ideal) ℓ) (c : Dev nD) :
    Cert.ReferenceIdeal.Value.res_main_v96 (F := Ideal) m c
      = finalSpec (F := Ideal) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) := by
  unfold Cert.ReferenceIdeal.Value.res_main_v96 finalSpec classify poolDiv poolSum poolSumCol layer layerOf clip0 preLayerOf normOf normOfSD
    dinv wrap srcOf dstOf mm0 mm1
  rfl

end Cert.ReferenceIdeal.RefValue

end
-- ==== Proof.MatmulRegions.lean ====
import proofs.«405667_j8718783610906_1_alg».proof.Proof.Gen.KernelIdeal.Frame
import proofs.«405667_j8718783610906_1_alg».proof.Proof.Gen.ReferenceIdeal
import proofs.«405667_j8718783610906_1_alg».proof.Proof.Spec
import Idealize.ShloMosaic.PureOps.Ideal
import Idealize.ShloMosaic.PureOps.Ideal.Laws
import Idealize.ShloMosaic.Lib.Pipeline.Value
import Idealize.ShloMosaic.Lib.ValueIdx

set_option maxRecDepth 16384

noncomputable section

namespace Cert.KernelIdeal.MatmulRegions

open Cert.KernelIdeal Cert.KernelIdeal.Gen Idealize.ShloMosaic Idealize.ShloMosaic.TcCoe

/-! ## A block's product at an index -/

theorem lhs_blk_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs_blk_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem rhs_blk_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem rhs_blk_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- Row `i 0`, column `k` of a block of the left array. -/
abbrev lblk (i : S10000x64.Idx) (k : Fin 128) : S10000x128.Idx := fun a => match a with
  | ⟨0, _⟩ => ⟨(i 0).val, (i 0).isLt⟩
  | ⟨1, _⟩ => ⟨k.val, k.isLt⟩
/-- Row `k`, column `i 1` of the right array. -/
abbrev rblk (i : S10000x64.Idx) (k : Fin 128) : S128x64.Idx := fun a => match a with
  | ⟨0, _⟩ => ⟨k.val, k.isLt⟩
  | ⟨1, _⟩ => ⟨(i 1).val, (i 1).isLt⟩

/-- The body's payload at an index: the change of float format is the identity on the extended reals and the
    accumulator is zero, so what is left is the sum over the contracted axis of the products. -/
theorem pay_apply (x0 : Vec Ideal S10000x128 .f32) (x1 : Vec Ideal S128x64 .f32) (i : S10000x64.Idx) :
    k0_pay1 (F := Ideal) x0 x1 i = ∑ k : Fin 128, x0 (lblk i k) * x1 (rblk i k) := by
  unfold k0_pay1
  refine (Ideal.matmul_constant_zero_apply _ none _ _ _).trans ?_
  rw [← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx i ((ValueIdx.contrEquiv1 dot_S10000x128_S128x64_S10000x64_1_0_0_1_n_n 128 rfl rfl).symm k) = lblk i k := funext fun a => Fin.ext (by
    match a with
    | ⟨0, _⟩ => exact lhs_blk_0 _ _
    | ⟨1, _⟩ => exact (lhs_blk_1 _ _).trans hk)
  have er : dot_S10000x128_S128x64_S10000x64_1_0_0_1_n_n.rhsIdx i ((ValueIdx.contrEquiv1 dot_S10000x128_S128x64_S10000x64_1_0_0_1_n_n 128 rfl rfl).symm k) = rblk i k := funext fun a => Fin.ext (by
    match a with
    | ⟨0, _⟩ => exact (rhs_blk_0 _ _).trans hk
    | ⟨1, _⟩ => exact rhs_blk_1 _ _)
  show x0 _ * x1 _ = _
  rw [el, er]

/-! ## The whole product at an index -/

theorem lhs_arr_0 (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x64_S100000x64_1_0_0_1_n_n.lhsBatch by decide), dif_pos (show (0 : Fin Cert.ReferenceIdeal.S100000x128.rank) ∈ Cert.ReferenceIdeal.dot_S100000x128_S128x64_S100000x64_1_0_0_1_n_n.lhsNonContracting by decide)]
  rfl
theorem lhs_arr_1 (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.lhsIdx i q 1).val = (q ⟨0, by decide⟩).val :=
  Cert.ReferenceIdeal.dot_S100000x128_S128x64_S100000x64_1_0_0_1_n_n.lhsIdx_val_of_single rfl i q
theorem rhs_arr_0 (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.rhsIdx i q 0).val = (q ⟨0, by decide⟩).val :=
  Cert.ReferenceIdeal.dot_S100000x128_S128x64_S100000x64_1_0_0_1_n_n.rhsIdx_val_of_single rfl i q
theorem rhs_arr_1 (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.rhsIdx i q 1).val = (i 1).val := by
  unfold DotDims.rhsIdx
  rw [dif_neg (show ¬(1 : Fin Cert.ReferenceIdeal.S128x64.rank) ∈ Cert.ReferenceIdeal.dot_S100000x128_S128x64_S100000x64_1_0_0_1_n_n.rhsBatch by decide), dif_pos (show (1 : Fin Cert.ReferenceIdeal.S128x64.rank) ∈ Cert.ReferenceIdeal.dot_S100000x128_S128x64_S100000x64_1_0_0_1_n_n.rhsNonContracting by decide)]
  rfl

/-- Row `i 0`, column `k` of the left array. -/
abbrev larr (i : Cert.ReferenceIdeal.S100000x64.Idx) (k : Fin 128) : Cert.ReferenceIdeal.S100000x128.Idx := fun a => match a with
  | ⟨0, _⟩ => ⟨(i 0).val, (i 0).isLt⟩
  | ⟨1, _⟩ => ⟨k.val, k.isLt⟩
/-- Row `k`, column `i 1` of the right array. -/
abbrev rarr (i : Cert.ReferenceIdeal.S100000x64.Idx) (k : Fin 128) : Cert.ReferenceIdeal.S128x64.Idx := fun a => match a with
  | ⟨0, _⟩ => ⟨k.val, k.isLt⟩
  | ⟨1, _⟩ => ⟨(i 1).val, (i 1).isLt⟩

/-- The whole product at an index: the same sum over the contracted axis, of the whole arrays. -/
theorem mm0_apply (x : Cert.Spec.FA Ideal Cert.ReferenceIdeal.S100000x128) (W : Cert.Spec.FA Ideal Cert.ReferenceIdeal.S128x64)
    (i : Cert.ReferenceIdeal.S100000x64.Idx) :
    Cert.Spec.mm0 (F := Ideal) x W i = ∑ k : Fin 128, x (larr i k) * W (rarr i k) := by
  unfold Cert.Spec.mm0
  simp only [Host.dotGeneral]
  rw [Ideal.dotGeneral_apply, ← Equiv.sum_comp (ValueIdx.contrEquiv1 Cert.ReferenceIdeal.dot_S100000x128_S128x64_S100000x64_1_0_0_1_n_n 128 rfl rfl).symm]
  refine Finset.sum_congr rfl fun k _ => ?_
  have hk := ValueIdx.contrEquiv1_symm_val Cert.ReferenceIdeal.dot_S100000x128_S128x64_S100000x64_1_0_0_1_n_n 128 rfl rfl k
  have el : Cert.ReferenceIdeal.dot_S100000x128_S128x64_S100000x64_1_0_0_1_n_n.lhsIdx i ((ValueIdx.contrEquiv1 Cert.ReferenceIdeal.dot_S100000x128_S128x64_S100000x64_1_0_0_1_n_n 128 rfl rfl).symm k) = larr i k := funext fun a => Fin.ext (by
    match a with
    | ⟨0, _⟩ => exact lhs_arr_0 _ _
    | ⟨1, _⟩ => exact (lhs_arr_1 _ _).trans hk)
  have er : Cert.ReferenceIdeal.dot_S100000x128_S128x64_S100000x64_1_0_0_1_n_n.rhsIdx i ((ValueIdx.contrEquiv1 Cert.ReferenceIdeal.dot_S100000x128_S128x64_S100000x64_1_0_0_1_n_n 128 rfl rfl).symm k) = rarr i k := funext fun a => Fin.ext (by
    match a with
    | ⟨0, _⟩ => exact (rhs_arr_0 _ _).trans hk
    | ⟨1, _⟩ => exact rhs_arr_1 _ _)
  rw [el, er]

/-! ## From the blocks to the array -/

theorem hz : (![0, 0] : Fin 2 → Nat) = fun _ => 0 := funext fun a => by
  match a with
  | ⟨0, _⟩ => rfl
  | ⟨1, _⟩ => rfl

/-- The index maps over the grid: point `t` stages row block `t` of the left array, the whole right array, and writes
    row block `t` of the output. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A block's product at a block index is the whole product at the array index, when the block of the left array holds
    the rows of the left array the array index names and the block of the right array is the right array. -/
theorem blk_eq (X : Cert.Spec.FA Ideal Cert.ReferenceIdeal.S100000x128) (W : Cert.Spec.FA Ideal Cert.ReferenceIdeal.S128x64)
    (x0 : Vec Ideal S10000x128 .f32) (x1 : Vec Ideal S128x64 .f32)
    (i : Cert.ReferenceIdeal.S100000x64.Idx) (y : S10000x64.Idx)
    (h0 : ∀ k : Fin 128, x0 (lblk y k) = X (larr i k)) (h1 : ∀ k : Fin 128, x1 (rblk y k) = W (rarr i k)) :
    k0_pay1 (F := Ideal) x0 x1 y = Cert.Spec.mm0 (F := Ideal) X W i := by
  rw [pay_apply, mm0_apply]
  exact Finset.sum_congr rfl fun k _ => by rw [h0, h1]

-- the TensorCore's buffer contents when the region is entered
variable (V : (c : Dev nD) → (b : Ref sig .tc) → Buf (Elt Ideal) ((c : Thread nD τ).loc b))

/-- What point `t` writes back is block `t` of the whole product. -/
theorem flushed_eq (c : Dev nD) (t : Fin cfg0.N) :
    (dat0 (F := Ideal) V c).flushed 2 t
      = ((cfg0.win 2).blk t).view.read (Elt Ideal) (Cert.Spec.mm0 (F := Ideal) (V c main_arg0) (V c main_arg3)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x64) hz]
  obtain ⟨e0, e1, e2, e3, e4, e5⟩ := idx_facts t
  funext j
  show k0_pay1 (F := Ideal) (iblk0 V c 0 t) (iblk0 V c 1 t) j
    = Cert.Spec.mm0 (F := Ideal) (V c main_arg0) (V c main_arg3) (((cfg0.win 2).blk t).view.emb j)
  refine blk_eq (V c main_arg0) (V c main_arg3) (iblk0 V c 0 t) (iblk0 V c 1 t) _ j (fun k => ?_) (fun k => ?_)
  · show V c main_arg0 (((cfg0.win 0).blk t).view.emb (lblk j k)) = V c main_arg0 (larr (((cfg0.win 2).blk t).view.emb j) k)
    refine congrArg _ (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  · show V c main_arg3 (((cfg0.win 1).blk t).view.emb (rblk j k)) = V c main_arg3 (rarr (((cfg0.win 2).blk t).view.emb j) k)
    refine congrArg _ (funext fun a => Fin.ext ?_)
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega

/-- An index of the output array is in point `t`'s block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v27).slice (win0_2.rect t)).set ↔ _
  rw [View.set_slice_whole, Rect.mem_set_unit]
  exact Iff.rfl

/-- Every row of the output is in the block of the point its row number divided by the block's height names. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ : ∃ t : Fin cfg0.N, t.val = (i 0).val / 10000 :=
    ⟨⟨(i 0).val / 10000, by show (i 0).val / 10000 < grid0.N; rw [N_0]; omega⟩, rfl⟩
  obtain ⟨e0, e1, e2, e3, e4, e5⟩ := idx_facts t
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- After the first product's region its output array holds the whole product of the two arrays the region found. -/
theorem region0_value (c : Dev nD) :
    (dat0 (F := Ideal) V c).arrAt 2 cfg0.N = Cert.Spec.mm0 (F := Ideal) (V c main_arg0) (V c main_arg3) :=
  (dat0 (F := Ideal) V c).arrAt_eq_of_cover 2 _ (fun t _ => flushed_eq V c t) cover

end Cert.KernelIdeal.MatmulRegions

end
-- ==== Proof.Matmul12Regions.lean ====
import proofs.«405667_j8718783610906_1_alg».proof.Proof.Gen.KernelIdeal.Frame
import proofs.«405667_j8718783610906_1_alg».proof.Proof.Gen.ReferenceIdeal
import proofs.«405667_j8718783610906_1_alg».proof.Proof.Spec
import Idealize.ShloMosaic.PureOps.Ideal
import Idealize.ShloMosaic.PureOps.Ideal.Laws
import Idealize.ShloMosaic.Lib.Pipeline.Value
import Idealize.ShloMosaic.Lib.ValueIdx

set_option maxRecDepth 16384

noncomputable section

namespace Cert.KernelIdeal.Matmul12Regions

open Cert.KernelIdeal Cert.KernelIdeal.Gen Idealize.ShloMosaic Idealize.ShloMosaic.TcCoe

-- the TensorCore's buffer contents when the region is entered
variable (V : (c : Dev nD) → (b : Ref sig .tc) → Buf (Elt Ideal) ((c : Thread nD τ).loc b))

/-! ## A row block's product and the whole product, index by index -/

open Idealize.ShloMosaic.ValueIdx in
/-- The block product's left operand index, axis 0: the output's row. -/
theorem lhs_blk_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- Axis 1: the contraction index. -/
theorem lhs_blk_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- The right operand index, axis 0: the contraction index. -/
theorem rhs_blk_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
/-- Axis 1: the output's column. -/
theorem rhs_blk_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The whole product's left operand index, axis 0: the output's row. -/
theorem lhs_whole_0 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 0).val = (i 0).val := by
  unfold DotDims.lhsIdx
  rw [dif_neg (show ¬(0 : Fin Cert.ReferenceIdeal.S100000x64.rank) ∈ Cert.ReferenceIdeal.dot_S100000x64_S64x64_S100000x64_1_0_0_1_n_n.lhsBatch by decide), dif_pos (show (0 : Fin Cert.ReferenceIdeal.S100000x64.rank) ∈ Cert.ReferenceIdeal.dot_S100000x64_S64x64_S100000x64_1_0_0_1_n_n.lhsNonContracting by decide)]
  rfl
/-- Axis 1: the contraction index. -/
theorem lhs_whole_1 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 1).val = (q ⟨0, by decide⟩).val :=
  Cert.ReferenceIdeal.dot_S100000x64_S64x64_S100000x64_1_0_0_1_n_n.lhsIdx_val_of_single rfl i q
/-- The right operand index, axis 0: the contraction index. -/
theorem rhs_whole_0 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 0).val = (q ⟨0, by decide⟩).val :=
  Cert.ReferenceIdeal.dot_S100000x64_S64x64_S100000x64_1_0_0_1_n_n.rhsIdx_val_of_single rfl i q
/-- Axis 1: the output's column. -/
theorem rhs_whole_1 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 1).val = (i 1).val := by
  unfold DotDims.rhsIdx
  rw [dif_neg (show ¬(1 : Fin Cert.ReferenceIdeal.S64x64.rank) ∈ Cert.ReferenceIdeal.dot_S100000x64_S64x64_S100000x64_1_0_0_1_n_n.rhsBatch by decide), dif_pos (show (1 : Fin Cert.ReferenceIdeal.S64x64.rank) ∈ Cert.ReferenceIdeal.dot_S100000x64_S64x64_S100000x64_1_0_0_1_n_n.rhsNonContracting by decide)]
  rfl

/-- A product of a [10000,64] block and a [64,64] array into a zero accumulator, at row `p` and column `q`: the sum
    over `k` of the block's `(p, k)` times the array's `(k, q)`. -/
theorem blk_matmul_apply (l : FVec Ideal S10000x64 .bf16) (r : FVec Ideal S64x64 .bf16) (p : Fin 10000) (q : Fin 64) :
    (matmul (F := Ideal) dot_S10000x64_S64x64_S10000x64_1_0_0_1_n_n none l r (constant S10000x64 .f32 0x00000000#32) : FVec Ideal S10000x64 .f32) (ValueIdx.ix2 p q)
      = ∑ k : Fin 64, l (ValueIdx.ix2 p k) * r (ValueIdx.ix2 k q) := by
  show FloatOps.matmul _ _ _ _ _ _ = _
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ValueIdx.ix2 p q) ((ValueIdx.contrEquiv1 dot_S10000x64_S64x64_S10000x64_1_0_0_1_n_n 64 rfl rfl).symm k) = ValueIdx.ix2 p k := funext fun a => Fin.ext (by
    match a with
    | ⟨0, _⟩ => exact lhs_blk_0 _ _
    | ⟨1, _⟩ => exact (lhs_blk_1 _ _).trans hk)
  have er : dot_S10000x64_S64x64_S10000x64_1_0_0_1_n_n.rhsIdx (ValueIdx.ix2 p q) ((ValueIdx.contrEquiv1 dot_S10000x64_S64x64_S10000x64_1_0_0_1_n_n 64 rfl rfl).symm k) = ValueIdx.ix2 k q := funext fun a => Fin.ext (by
    match a with
    | ⟨0, _⟩ => exact (rhs_blk_0 _ _).trans hk
    | ⟨1, _⟩ => exact rhs_blk_1 _ _)
  rw [el, er]

/-- The host's whole product of a [100000,64] array and a [64,64] array, at row `p` and column `q`: the same sum. -/
theorem mm1_apply (h : Cert.Spec.FA Ideal Cert.ReferenceIdeal.S100000x64) (W : Cert.Spec.FA Ideal Cert.ReferenceIdeal.S64x64) (p : Fin 100000) (q : Fin 64) :
    Cert.Spec.mm1 (F := Ideal) h W (ValueIdx.ix2 p q) = ∑ k : Fin 64, h (ValueIdx.ix2 p k) * W (ValueIdx.ix2 k q) := by
  unfold Cert.Spec.mm1
  simp only [Host.dotGeneral]
  rw [Ideal.dotGeneral_apply, ← Equiv.sum_comp (ValueIdx.contrEquiv1 Cert.ReferenceIdeal.dot_S100000x64_S64x64_S100000x64_1_0_0_1_n_n 64 rfl rfl).symm]
  refine Finset.sum_congr rfl fun k _ => ?_
  have hk := ValueIdx.contrEquiv1_symm_val Cert.ReferenceIdeal.dot_S100000x64_S64x64_S100000x64_1_0_0_1_n_n 64 rfl rfl k
  have el : Cert.ReferenceIdeal.dot_S100000x64_S64x64_S100000x64_1_0_0_1_n_n.lhsIdx (ValueIdx.ix2 p q) ((ValueIdx.contrEquiv1 Cert.ReferenceIdeal.dot_S100000x64_S64x64_S100000x64_1_0_0_1_n_n 64 rfl rfl).symm k) = ValueIdx.ix2 p k := funext fun a => Fin.ext (by
    match a with
    | ⟨0, _⟩ => exact lhs_whole_0 _ _
    | ⟨1, _⟩ => exact (lhs_whole_1 _ _).trans hk)
  have er : Cert.ReferenceIdeal.dot_S100000x64_S64x64_S100000x64_1_0_0_1_n_n.rhsIdx (ValueIdx.ix2 p q) ((ValueIdx.contrEquiv1 Cert.ReferenceIdeal.dot_S100000x64_S64x64_S100000x64_1_0_0_1_n_n 64 rfl rfl).symm k) = ValueIdx.ix2 k q := funext fun a => Fin.ext (by
    match a with
    | ⟨0, _⟩ => exact (rhs_whole_0 _ _).trans hk
    | ⟨1, _⟩ => exact rhs_whole_1 _ _)
  rw [el, er]

/-- The two regions' one payload at row `p` and column `q` of its block: the shape cast to the same shape and the
    two narrowings are the identity on extended reals, and what is left is the block's product. -/
theorem pay1_apply (l : Vec Ideal S10000x64 .f32) (r : Vec Ideal S64x64 .f32) (p : Fin 10000) (q : Fin 64) :
    k1_pay1 (F := Ideal) l r (ValueIdx.ix2 p q) = ∑ k : Fin 64, l (ValueIdx.ix2 p k) * r (ValueIdx.ix2 k q) := by
  unfold k1_pay1
  simp only [shapeCast_self]
  rw [blk_matmul_apply]
  rfl
/-- The third product's payload is the same term. -/
theorem pay2_apply (l : Vec Ideal S10000x64 .f32) (r : Vec Ideal S64x64 .f32) (p : Fin 10000) (q : Fin 64) :
    k2_pay1 (F := Ideal) l r (ValueIdx.ix2 p q) = ∑ k : Fin 64, l (ValueIdx.ix2 p k) * r (ValueIdx.ix2 k q) := by
  unfold k2_pay1
  simp only [shapeCast_self]
  rw [blk_matmul_apply]
  rfl

/-- Block `n` of the whole product, read at an index `y` of the block, is the block's product there: when the left
    block holds the left array's rows from `10000·n` on and the right block is the right array, the two sums over
    the contraction index agree term by term. -/
theorem pay1_eq_mm1 (h : Cert.Spec.FA Ideal Cert.ReferenceIdeal.S100000x64) (W : Cert.Spec.FA Ideal Cert.ReferenceIdeal.S64x64)
    (x0 : Vec Ideal S10000x64 .f32) (x1 : Vec Ideal S64x64 .f32) (n : Nat)
    (hx0 : ∀ (p : Fin 10000) (k : Fin 64) (r : Fin 100000), r.val = n * 10000 + p.val → x0 (ValueIdx.ix2 p k) = h (ValueIdx.ix2 r k))
    (hx1 : ∀ (k q : Fin 64), x1 (ValueIdx.ix2 k q) = W (ValueIdx.ix2 k q))
    (y : S10000x64.Idx) (i : Cert.ReferenceIdeal.S100000x64.Idx) (hi0 : (i 0).val = n * 10000 + (y 0).val) (hi1 : (i 1).val = (y 1).val) :
    k1_pay1 (F := Ideal) x0 x1 y = Cert.Spec.mm1 (F := Ideal) h W i := by
  obtain ⟨p, q, rfl⟩ : ∃ (p : Fin 10000) (q : Fin 64), y = ValueIdx.ix2 p q := ⟨y 0, y 1, ValueIdx.eq_ix2 y⟩
  obtain ⟨r, q', rfl⟩ : ∃ (r : Fin 100000) (q' : Fin 64), i = ValueIdx.ix2 r q' := ⟨i 0, i 1, ValueIdx.eq_ix2 i⟩
  obtain rfl : q' = q := Fin.ext hi1
  rw [pay1_apply, mm1_apply]
  refine Finset.sum_congr rfl fun k _ => ?_
  rw [hx0 p k r hi0, hx1]
/-- The same for the third product's payload. -/
theorem pay2_eq_mm1 (h : Cert.Spec.FA Ideal Cert.ReferenceIdeal.S100000x64) (W : Cert.Spec.FA Ideal Cert.ReferenceIdeal.S64x64)
    (x0 : Vec Ideal S10000x64 .f32) (x1 : Vec Ideal S64x64 .f32) (n : Nat)
    (hx0 : ∀ (p : Fin 10000) (k : Fin 64) (r : Fin 100000), r.val = n * 10000 + p.val → x0 (ValueIdx.ix2 p k) = h (ValueIdx.ix2 r k))
    (hx1 : ∀ (k q : Fin 64), x1 (ValueIdx.ix2 k q) = W (ValueIdx.ix2 k q))
    (y : S10000x64.Idx) (i : Cert.ReferenceIdeal.S100000x64.Idx) (hi0 : (i 0).val = n * 10000 + (y 0).val) (hi1 : (i 1).val = (y 1).val) :
    k2_pay1 (F := Ideal) x0 x1 y = Cert.Spec.mm1 (F := Ideal) h W i :=
  (pay1_eq_mm1 h W x0 x1 n hx0 hx1 y i hi0 hi1)

/-! ## From blocks to the array: the second product's region -/

/-- The zero offsets of a store over the whole block. -/
theorem hz : (![0, 0] : Fin 2 → Nat) = fun _ => 0 := funext fun a => by fin_cases a <;> rfl

/-- The windows' index maps over the grid: at point `t` the left and the output window are at block `(t, 0)`, the
    right window at block `(0, 0)`. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left window's block at point `t` holds rows `10000·t …` of the left array. -/
theorem iblk1_0_apply (c : Dev nD) (t : Fin cfg1.N) (p : Fin 10000) (k : Fin 64) (r : Fin 100000) (hr : r.val = t.val * 10000 + p.val) :
    (iblk1 (F := Ideal) V c 0 t : Vec Ideal S10000x64 .f32) (ValueIdx.ix2 p k) = (V c main_v44 : S100000x64.Idx → Elt Ideal .f32) (ValueIdx.ix2 r k) := by
  obtain ⟨e0, e1, -, -, -, -⟩ := idx_facts1 t
  unfold iblk1
  rw [View.read_apply]
  show V c main_v44 _ = V c main_v44 _
  congr 1
  funext a
  apply Fin.ext
  match a with
  | ⟨0, _⟩ => show win1_0.index t 0 * 10000 + 1 * p.val = r.val; rw [e0, hr]; omega
  | ⟨1, _⟩ => show win1_0.index t 1 * 64 + 1 * k.val = k.val; rw [e1]; omega

/-- The right window's block at every point is the right array. -/
theorem iblk1_1_apply (c : Dev nD) (t : Fin cfg1.N) (k q : Fin 64) :
    (iblk1 (F := Ideal) V c 1 t : Vec Ideal S64x64 .f32) (ValueIdx.ix2 k q) = (V c main_arg5 : S64x64.Idx → Elt Ideal .f32) (ValueIdx.ix2 k q) := by
  obtain ⟨-, -, e2, e3, -, -⟩ := idx_facts1 t
  unfold iblk1
  rw [View.read_apply]
  show V c main_arg5 _ = V c main_arg5 _
  congr 1
  funext a
  apply Fin.ext
  match a with
  | ⟨0, _⟩ => show win1_1.index t 0 * 64 + 1 * k.val = k.val; rw [e2]; omega
  | ⟨1, _⟩ => show win1_1.index t 1 * 64 + 1 * q.val = q.val; rw [e3]; omega

/-- What point `t` writes back is block `t` of the whole product. -/
theorem flushed1_eq (c : Dev nD) (t : Fin cfg1.N) :
    (dat1 (F := Ideal) V c).flushed 2 t = ((cfg1.win 2).blk t).view.read (Elt Ideal) (Cert.Spec.mm1 (F := Ideal) (V c main_v44) (V c main_arg5)) := by
  show (cfg1.win 2).cut (grid1.coords t) ((dat1 V c).after 2 t) = _
  rw [after1_2]
  unfold out1_2
  rw [View.canon_unit_zero hz]
  simp only [View.ld_unit_zero (S := S10000x64) hz, View.ld_unit_zero (S := S64x64) hz]
  obtain ⟨-, -, -, -, e4, e5⟩ := idx_facts1 t
  funext j
  show k1_pay1 (F := Ideal) (iblk1 V c 0 t) (iblk1 V c 1 t) j = Cert.Spec.mm1 (F := Ideal) (V c main_v44) (V c main_arg5) (((cfg1.win 2).blk t).view.emb j)
  refine pay1_eq_mm1 (V c main_v44) (V c main_arg5) (iblk1 V c 0 t) (iblk1 V c 1 t) t.val
    (fun p k r hr => iblk1_0_apply V c t p k r hr) (fun k q => iblk1_1_apply V c t k q) j _ ?_ ?_
  · show win1_2.index t 0 * 10000 + 1 * (j 0).val = t.val * 10000 + (j 0).val; rw [e4]; omega
  · show win1_2.index t 1 * 64 + 1 * (j 1).val = (j 1).val; rw [e5]; omega

/-- An index of the output array is in point `t`'s block iff each coordinate is in the block's range on its axis. -/
theorem mem_blk1 (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v45).slice (win1_2.rect t)).set ↔ _
  rw [View.set_slice_whole, Rect.mem_set_unit]
  exact Iff.rfl

/-- Every row `r` of the output array is in the block of point `r / 10000`, which writes back. -/
theorem cover1 (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ : ∃ t : Fin cfg1.N, t.val = (i 0).val / 10000 := ⟨⟨(i 0).val / 10000, by rw [show cfg1.N = 10 from N_1]; omega⟩, rfl⟩
  obtain ⟨-, -, -, -, e4, e5⟩ := idx_facts1 t
  refine ⟨t, flush1_2 t, ?_⟩
  rw [mem_blk1]
  intro a
  match a with
  | ⟨0, _⟩ => show win1_2.index t 0 * 10000 ≤ (i 0).val ∧ (i 0).val < win1_2.index t 0 * 10000 + 10000; rw [e4, ht]; omega
  | ⟨1, _⟩ => show win1_2.index t 1 * 64 ≤ (i 1).val ∧ (i 1).val < win1_2.index t 1 * 64 + 64; rw [e5]; omega

/-- After the second product's region its output array holds the whole product of the two arrays the region found. -/
theorem region1_value (c : Dev nD) :
    (dat1 (F := Ideal) V c).arrAt 2 cfg1.N = Cert.Spec.mm1 (F := Ideal) (V c main_v44) (V c main_arg5) := by
  exact (dat1 (F := Ideal) V c).arrAt_eq_of_cover 2 _ (fun t _ => flushed1_eq V c t) cover1

/-! ## From blocks to the array: the third product's region -/

/-- The windows' index maps over the grid: at point `t` the left and the output window are at block `(t, 0)`, the
    right window at block `(0, 0)`. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left window's block at point `t` holds rows `10000·t …` of the left array. -/
theorem iblk2_0_apply (c : Dev nD) (t : Fin cfg2.N) (p : Fin 10000) (k : Fin 64) (r : Fin 100000) (hr : r.val = t.val * 10000 + p.val) :
    (iblk2 (F := Ideal) V c 0 t : Vec Ideal S10000x64 .f32) (ValueIdx.ix2 p k) = (V c main_v62 : S100000x64.Idx → Elt Ideal .f32) (ValueIdx.ix2 r k) := by
  obtain ⟨e0, e1, -, -, -, -⟩ := idx_facts2 t
  unfold iblk2
  rw [View.read_apply]
  show V c main_v62 _ = V c main_v62 _
  congr 1
  funext a
  apply Fin.ext
  match a with
  | ⟨0, _⟩ => show win2_0.index t 0 * 10000 + 1 * p.val = r.val; rw [e0, hr]; omega
  | ⟨1, _⟩ => show win2_0.index t 1 * 64 + 1 * k.val = k.val; rw [e1]; omega

/-- The right window's block at every point is the right array. -/
theorem iblk2_1_apply (c : Dev nD) (t : Fin cfg2.N) (k q : Fin 64) :
    (iblk2 (F := Ideal) V c 1 t : Vec Ideal S64x64 .f32) (ValueIdx.ix2 k q) = (V c main_arg7 : S64x64.Idx → Elt Ideal .f32) (ValueIdx.ix2 k q) := by
  obtain ⟨-, -, e2, e3, -, -⟩ := idx_facts2 t
  unfold iblk2
  rw [View.read_apply]
  show V c main_arg7 _ = V c main_arg7 _
  congr 1
  funext a
  apply Fin.ext
  match a with
  | ⟨0, _⟩ => show win2_1.index t 0 * 64 + 1 * k.val = k.val; rw [e2]; omega
  | ⟨1, _⟩ => show win2_1.index t 1 * 64 + 1 * q.val = q.val; rw [e3]; omega

/-- What point `t` writes back is block `t` of the whole product. -/
theorem flushed2_eq (c : Dev nD) (t : Fin cfg2.N) :
    (dat2 (F := Ideal) V c).flushed 2 t = ((cfg2.win 2).blk t).view.read (Elt Ideal) (Cert.Spec.mm1 (F := Ideal) (V c main_v62) (V c main_arg7)) := by
  show (cfg2.win 2).cut (grid2.coords t) ((dat2 V c).after 2 t) = _
  rw [after2_2]
  unfold out2_2
  rw [View.canon_unit_zero hz]
  simp only [View.ld_unit_zero (S := S10000x64) hz, View.ld_unit_zero (S := S64x64) hz]
  obtain ⟨-, -, -, -, e4, e5⟩ := idx_facts2 t
  funext j
  show k2_pay1 (F := Ideal) (iblk2 V c 0 t) (iblk2 V c 1 t) j = Cert.Spec.mm1 (F := Ideal) (V c main_v62) (V c main_arg7) (((cfg2.win 2).blk t).view.emb j)
  refine pay2_eq_mm1 (V c main_v62) (V c main_arg7) (iblk2 V c 0 t) (iblk2 V c 1 t) t.val
    (fun p k r hr => iblk2_0_apply V c t p k r hr) (fun k q => iblk2_1_apply V c t k q) j _ ?_ ?_
  · show win2_2.index t 0 * 10000 + 1 * (j 0).val = t.val * 10000 + (j 0).val; rw [e4]; omega
  · show win2_2.index t 1 * 64 + 1 * (j 1).val = (j 1).val; rw [e5]; omega

/-- An index of the output array is in point `t`'s block iff each coordinate is in the block's range on its axis. -/
theorem mem_blk2 (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v63).slice (win2_2.rect t)).set ↔ _
  rw [View.set_slice_whole, Rect.mem_set_unit]
  exact Iff.rfl

/-- Every row `r` of the output array is in the block of point `r / 10000`, which writes back. -/
theorem cover2 (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ : ∃ t : Fin cfg2.N, t.val = (i 0).val / 10000 := ⟨⟨(i 0).val / 10000, by rw [show cfg2.N = 10 from N_2]; omega⟩, rfl⟩
  obtain ⟨-, -, -, -, e4, e5⟩ := idx_facts2 t
  refine ⟨t, flush2_2 t, ?_⟩
  rw [mem_blk2]
  intro a
  match a with
  | ⟨0, _⟩ => show win2_2.index t 0 * 10000 ≤ (i 0).val ∧ (i 0).val < win2_2.index t 0 * 10000 + 10000; rw [e4, ht]; omega
  | ⟨1, _⟩ => show win2_2.index t 1 * 64 ≤ (i 1).val ∧ (i 1).val < win2_2.index t 1 * 64 + 64; rw [e5]; omega

/-- The third product's region, likewise. -/
theorem region2_value (c : Dev nD) :
    (dat2 (F := Ideal) V c).arrAt 2 cfg2.N = Cert.Spec.mm1 (F := Ideal) (V c main_v62) (V c main_arg7) := by
  exact (dat2 (F := Ideal) V c).arrAt_eq_of_cover 2 _ (fun t _ => flushed2_eq V c t) cover2

end Cert.KernelIdeal.Matmul12Regions

end
-- ==== Proof.LibRowsScatter.lean ====
/-
  A scatter-add of rows, read at an index, over the extended reals.

  What a segment sum of a MATRIX of updates `upd : [E, D]` at a column of indices `idx : [E, 1]` into an operand
  `x : [N, D]` lowers to: a `stablehlo.scatter` with an add body whose update window is the updates' second axis
  (update_window_dims `[1]`), whose operand row axis is inserted (inserted_window_dims `[0]`) and is the one axis
  the index vector addresses (scatter_dims_to_operand_dims `[0]`, index_vector_dim `1`): row `e` of the updates is
  added, whole, to row `idx[e, 0]` of the operand. Over the extended reals element `(v, c)` of the result is the
  operand's plus the sum of `upd[e, c]` over the positions `e` whose index `idx[e, 0]`, read as a signed integer
  and NOT clamped, is `v`: an update row whose signed index is no row of the operand is dropped.
-/
import Idealize.ShloMosaic.PureOps.Ideal
import Idealize.ShloMosaic.Lib.ValueIdx

noncomputable section

open scoped BigOperators

namespace Cert.LibRowsScatter

open Idealize.ShloMosaic Idealize.ShloMosaic.ValueIdx

/-! ## The coordinates of the landing index

For an update index `(e, c')`. The operand's row axis is inserted and addressed by the index vector: its window
coordinate is `0` and its window starts at the signed word `idx[e, 0]`. The operand's column axis is the image of the
updates' window axis and no index addresses it: its window starts at `0` and its window coordinate is the update's
column `c'`. Each fact is read off the record once its four lists are the stated literals. -/

section Coordinates

variable {N E D w : Nat}
  (s : ScatterDims (⟨2, ![N, D]⟩ : Shape) (⟨2, ![E, 1]⟩ : Shape) (⟨2, ![E, D]⟩ : Shape))
  (huw : s.updateWindowDims = [1]) (hiw : s.insertedWindowDims = [0])
  (hsd : s.scatterDimsToOperandDims = [0]) (hiv : s.indexVectorDim = 1)

include huw hiw hsd hiv

/-- On the operand's row axis the window starts at the signed index of the update's row. -/
theorem start_row (idx : IVec (⟨2, ![E, 1]⟩ : Shape) w) (e : Fin E) (c' : Fin D) :
    s.start (ix2 e c') idx 0 = (idx (ix2 e (0 : Fin 1))).toInt := by
  obtain ⟨uw, iw, sd, iv, wf⟩ := s
  subst huw hiw hsd hiv
  unfold ScatterDims.start
  rw [dif_pos (List.mem_singleton.mpr rfl)]
  refine congrArg (fun i => (idx i).toInt) ?_
  funext b
  refine Fin.ext ?_
  match b with
  | ⟨0, _⟩ => rfl
  | ⟨1, _⟩ => rfl

/-- On the operand's column axis, which no index addresses, the window starts at `0`. -/
theorem start_col (idx : IVec (⟨2, ![E, 1]⟩ : Shape) w) (e : Fin E) (c' : Fin D) :
    s.start (ix2 e c') idx 1 = 0 := by
  obtain ⟨uw, iw, sd, iv, wf⟩ := s
  subst huw hiw hsd hiv
  unfold ScatterDims.start
  exact dif_neg fun h => Nat.one_ne_zero (congrArg Fin.val (List.mem_singleton.mp h))

/-- The operand's row axis is inserted: its window coordinate is `0`. -/
theorem window_row (e : Fin E) (c' : Fin D) : s.window (ix2 e c') 0 = 0 := by
  obtain ⟨uw, iw, sd, iv, wf⟩ := s
  subst huw hiw hsd hiv
  rfl

/-- The operand's column axis carries the updates' window axis: its window coordinate is the update's column. -/
theorem window_col (e : Fin E) (c' : Fin D) : s.window (ix2 e c') 1 = c'.val := by
  obtain ⟨uw, iw, sd, iv, wf⟩ := s
  subst huw hiw hsd hiv
  rfl

/-! ## Where an update lands -/

/-- WHERE AN UPDATE LANDS: update index `(e, c')` lands on `(v, c)` exactly when the signed index of row `e` is `v`
    and the columns agree. Left to right the landing index exists, so the row start is nonnegative and its `toNat` is
    `v`, while the column coordinate is `c'` itself; right to left both coordinates are in range (`v < N`, `c < D`)
    and the index built from them is `(v, c)`. -/
theorem resultIdx?_eq_some_iff (idx : IVec (⟨2, ![E, 1]⟩ : Shape) w) (e : Fin E) (c' : Fin D) (v : Fin N)
    (c : Fin D) :
    s.resultIdx? (ix2 e c') idx = some (ix2 v c) ↔ (idx (ix2 e (0 : Fin 1))).toInt = (v.val : ℤ) ∧ c' = c := by
  have h0 := start_row s huw hiw hsd hiv idx e c'
  have h1 := start_col s huw hiw hsd hiv idx e c'
  have w0 := window_row s huw hiw hsd hiv e c'
  have w1 := window_col s huw hiw hsd hiv e c'
  unfold ScatterDims.resultIdx?
  constructor
  · intro h
    split at h
    · rename_i hr
      have hf := Option.some.inj h
      have e0 := congrArg Fin.val (congrFun hf 0)
      have e1 := congrArg Fin.val (congrFun hf 1)
      have r0 := (hr 0).1
      simp only [h0, h1, w0, w1] at e0 e1 r0
      change _ = v.val at e0
      change _ = c.val at e1
      exact ⟨by omega, Fin.ext (by omega)⟩
    · exact absurd h (by simp)
  · rintro ⟨hv, rfl⟩
    have hr : ∀ a, 0 ≤ s.start (ix2 e c') idx a + s.window (ix2 e c') a ∧
        s.start (ix2 e c') idx a + s.window (ix2 e c') a < (⟨2, ![N, D]⟩ : Shape).size a := by
      intro a
      match a with
      | ⟨0, _⟩ =>
        show 0 ≤ s.start (ix2 e c') idx 0 + s.window (ix2 e c') 0 ∧
          s.start (ix2 e c') idx 0 + s.window (ix2 e c') 0 < (N : ℤ)
        rw [h0, w0, hv]; have := v.isLt; omega
      | ⟨1, _⟩ =>
        show 0 ≤ s.start (ix2 e c') idx 1 + s.window (ix2 e c') 1 ∧
          s.start (ix2 e c') idx 1 + s.window (ix2 e c') 1 < (D : ℤ)
        rw [h1, w1]; have := c'.isLt; omega
    rw [dif_pos hr]
    refine congrArg some ?_
    funext a
    refine Fin.ext ?_
    match a with
    | ⟨0, _⟩ =>
      show (s.start (ix2 e c') idx 0 + s.window (ix2 e c') 0).toNat = v.val
      rw [h0, w0, hv]; omega
    | ⟨1, _⟩ =>
      show (s.start (ix2 e c') idx 1 + s.window (ix2 e c') 1).toNat = c'.val
      rw [h1, w1]; omega

end Coordinates

/-! ## The sum over the landing updates -/

/-- The sum of the updates that land on `(v, c)` is the sum over the update rows `e` of `upd[e, c]` guarded by "the
    signed index of `e` is `v`": the filtered sum is a sum of guarded terms over all update indices, that is the double
    sum over rows and columns; the guard is the landing condition, whose column half keeps the one column `c` of each
    row. -/
theorem sum_landing {N E D w : Nat}
    (s : ScatterDims (⟨2, ![N, D]⟩ : Shape) (⟨2, ![E, 1]⟩ : Shape) (⟨2, ![E, D]⟩ : Shape))
    (huw : s.updateWindowDims = [1]) (hiw : s.insertedWindowDims = [0])
    (hsd : s.scatterDimsToOperandDims = [0]) (hiv : s.indexVectorDim = 1)
    (idx : IVec (⟨2, ![E, 1]⟩ : Shape) w) (upd : (⟨2, ![E, D]⟩ : Shape).Idx → EReal) (v : Fin N) (c : Fin D) :
    (∑ j ∈ Finset.univ.filter (fun j => s.resultIdx? j idx = some (ix2 v c)), upd j)
      = ∑ e : Fin E, if (idx (ix2 e (0 : Fin 1))).toInt = (v.val : ℤ) then upd (ix2 e c) else 0 := by
  rw [Finset.sum_filter, sum_idx2]
  refine Finset.sum_congr rfl fun e _ => ?_
  have hg : ∀ c' : Fin D,
      (if s.resultIdx? (ix2 e c') idx = some (ix2 v c) then upd (ix2 e c') else 0)
        = if c' = c then (if (idx (ix2 e (0 : Fin 1))).toInt = (v.val : ℤ) then upd (ix2 e c') else 0) else 0 := by
    intro c'
    have hl := resultIdx?_eq_some_iff s huw hiw hsd hiv idx e c' v c
    by_cases hc : c' = c
    · rw [if_pos hc]
      exact if_congr (hl.trans (and_iff_left hc)) rfl rfl
    · rw [if_neg hc, if_neg fun h => hc (hl.mp h).2]
  rw [Finset.sum_congr rfl fun c' _ => hg c', Finset.sum_ite_eq' Finset.univ c, if_pos (Finset.mem_univ c)]

/-- THE SCATTER-ADD OF ROWS READ AT `(v, c)`: for any dimension-number record of the row segment-sum form, the
    operand's element plus the sum over the update rows `e` whose signed index is `v` of the update's element
    `(e, c)`. -/
theorem rowsScatterAdd_apply {φ : FTy} {N E D w : Nat}
    (s : ScatterDims (⟨2, ![N, D]⟩ : Shape) (⟨2, ![E, 1]⟩ : Shape) (⟨2, ![E, D]⟩ : Shape))
    (huw : s.updateWindowDims = [1]) (hiw : s.insertedWindowDims = [0])
    (hsd : s.scatterDimsToOperandDims = [0]) (hiv : s.indexVectorDim = 1)
    (x : FVec Ideal (⟨2, ![N, D]⟩ : Shape) φ) (idx : IVec (⟨2, ![E, 1]⟩ : Shape) w)
    (upd : FVec Ideal (⟨2, ![E, D]⟩ : Shape) φ) (v : Fin N) (c : Fin D) :
    Host.scatterAdd s x idx upd (ix2 v c)
      = x (ix2 v c) + ∑ e : Fin E, if (idx (ix2 e (0 : Fin 1))).toInt = (v.val : ℤ) then upd (ix2 e c) else 0 := by
  exact congrArg (x (ix2 v c) + ·) (sum_landing s huw hiw hsd hiv idx upd v c)

end Cert.LibRowsScatter

end
-- ==== Proof.PoolRegion.lean ====
/-
  The pool region's value: after its ten points the output array is the host's scatter-add of the node rows at the
  column of graph indices.

  Point `t` stages rows `10000·t … 10000·t + 9999` of the node features `h : [100000, 64]` and of the column of graph
  words `col : [100000, 1]`; the output block is the whole `[256, 64]` array at every point, carried from point to point
  and written back once, after the last. The body builds the one-hot matrix of the staged graph words against the graph
  numbers `0 … 255` and contracts it with the staged rows over the row axis: at graph `g` and feature `f` this adds
  the feature `f` of the staged rows whose word is `g`'s (`1·x = x` and `0·x = 0` for every extended real). The first
  point starts from the zero block, each later one from what the point before left, so after the last point the array
  holds zero plus the ten blocks' parts: one guarded sum over all hundred thousand rows. A 32-bit word is the word of
  `g < 256` exactly when its signed value is `g`, which is the scatter-add's guard.
-/
import proofs.«405667_j8718783610906_1_alg».proof.Proof.Gen.KernelIdeal.Frame
import proofs.«405667_j8718783610906_1_alg».proof.Proof.Gen.ReferenceIdeal
import proofs.«405667_j8718783610906_1_alg».proof.Proof.Spec
import proofs.«405667_j8718783610906_1_alg».proof.Proof.LibRowsScatter
import Idealize.ShloMosaic.PureOps.Ideal
import Idealize.ShloMosaic.PureOps.Ideal.Laws
import Idealize.ShloMosaic.Lib.Pipeline.Value
import Idealize.ShloMosaic.Lib.ValueIdx
import Idealize.ShloMosaic.Lib.Tactic
import Mathlib.Algebra.BigOperators.Fin
import Mathlib.Logic.Equiv.Fin.Basic

set_option maxRecDepth 16384

noncomputable section

open scoped BigOperators

namespace Cert.KernelIdeal.PoolRegion

open Cert.KernelIdeal Cert.KernelIdeal.Gen Idealize.ShloMosaic Idealize.ShloMosaic.TcCoe
open Idealize.ShloMosaic.ValueIdx

/-- Row `n` of block `t` is row `10000·t + n` of the array. -/
abbrev rowOf (t : Fin 10) (n : Fin 10000) : Fin 100000 :=
  ⟨10000 * t.val + n.val, by have := t.isLt; have := n.isLt; omega⟩

/-- Ten blocks of ten thousand rows are the hundred thousand rows. -/
theorem sum_blocks {M : Type*} [AddCommMonoid M] (G : Fin 100000 → M) :
    ∑ t : Fin 10, ∑ n : Fin 10000, G (rowOf t n) = ∑ e : Fin 100000, G e := by
  calc ∑ t : Fin 10, ∑ n : Fin 10000, G (rowOf t n)
      = ∑ p : Fin 10 × Fin 10000, G (rowOf p.1 p.2) := (Fintype.sum_prod_type (fun p : Fin 10 × Fin 10000 => G (rowOf p.1 p.2))).symm
    _ = ∑ p : Fin 10 × Fin 10000, G (finProdFinEquiv p) :=
        Finset.sum_congr rfl fun p _ => congrArg G (Fin.ext (by
          show 10000 * p.1.val + p.2.val = p.2.val + 10000 * p.1.val
          omega))
    _ = ∑ e : Fin 100000, G e := Equiv.sum_comp (finProdFinEquiv (m := 10) (n := 10000)) G

/-- The one-hot weight: the comparison's bit, widened and converted, is `1` where the words agree and `0` elsewhere. -/
theorem hot_eq (a b : BitVec 32) :
    (FloatOps.sitofp (F := Ideal) .f32 ((IntOp.cmpi .eq a b).setWidth 32) : Ideal .f32) = if a = b then 1 else 0 := by
  show (((((IntOp.cmpi .eq a b).setWidth 32).toInt : ℤ) : ℝ) : EReal) = _
  by_cases h : a = b
  · subst h
    rw [if_pos rfl]
    have : ((IntOp.cmpi .eq a a).setWidth 32).toInt = 1 := by
      simp [IntOp.cmpi]
    rw [this]; simp
  · rw [if_neg h]
    have hb : (a == b) = false := beq_eq_false_iff_ne.mpr h
    have : ((IntOp.cmpi .eq a b).setWidth 32).toInt = 0 := by
      simp [IntOp.cmpi, hb]
    rw [this]; simp

/-- A 32-bit word is the word of a graph number below 256 exactly when its signed value is that number. -/
theorem word_eq_iff (b : BitVec 32) (g : Fin 256) : b = BitVec.ofNat 32 g.val ↔ b.toInt = (g.val : ℤ) := by
  have hg := g.isLt
  have hb := b.isLt
  have e := BitVec.toInt_eq_toNat_cond b
  constructor
  · rintro rfl
    have : (BitVec.ofNat 32 g.val).toNat = g.val := by rw [BitVec.toNat_ofNat]; omega
    rw [BitVec.toInt_eq_toNat_cond, this]; split <;> omega
  · intro h
    apply BitVec.eq_of_toNat_eq
    rw [BitVec.toNat_ofNat]
    split at e <;> omega

/-- A guarded term: the weight times the value is the value where the words agree and nothing elsewhere, for every
    extended real (the infinities too: `1·x = x` and `0·x = 0`). -/
theorem hot_mul (a b : BitVec 32) (x : EReal) :
    (if a = b then (1 : EReal) else 0) * x = if a = b then x else 0 := by
  split
  · exact one_mul x
  · exact zero_mul x

/-! ## The point's partial product at an index -/

theorem lhs_pool_0 (i : S256x64.Idx) (q : dot_S10000x256_S10000x64_S256x64_0_0_1_1_n_n.contr.Idx) :
    (dot_S10000x256_S10000x64_S256x64_0_0_1_1_n_n.lhsIdx i q 0).val = (q ⟨0, by decide⟩).val :=
  dot_S10000x256_S10000x64_S256x64_0_0_1_1_n_n.lhsIdx_val_of_single rfl i q
theorem lhs_pool_1 (i : S256x64.Idx) (q : dot_S10000x256_S10000x64_S256x64_0_0_1_1_n_n.contr.Idx) :
    (dot_S10000x256_S10000x64_S256x64_0_0_1_1_n_n.lhsIdx i q 1).val = (i 0).val := by
  unfold DotDims.lhsIdx
  rw [dif_neg (show ¬(1 : Fin S10000x256.rank) ∈ dot_S10000x256_S10000x64_S256x64_0_0_1_1_n_n.lhsBatch by decide), dif_pos (show (1 : Fin S10000x256.rank) ∈ dot_S10000x256_S10000x64_S256x64_0_0_1_1_n_n.lhsNonContracting by decide)]
  rfl
theorem rhs_pool_0 (i : S256x64.Idx) (q : dot_S10000x256_S10000x64_S256x64_0_0_1_1_n_n.contr.Idx) :
    (dot_S10000x256_S10000x64_S256x64_0_0_1_1_n_n.rhsIdx i q 0).val = (q ⟨0, by decide⟩).val :=
  dot_S10000x256_S10000x64_S256x64_0_0_1_1_n_n.rhsIdx_val_of_single rfl i q
theorem rhs_pool_1 (i : S256x64.Idx) (q : dot_S10000x256_S10000x64_S256x64_0_0_1_1_n_n.contr.Idx) :
    (dot_S10000x256_S10000x64_S256x64_0_0_1_1_n_n.rhsIdx i q 1).val = (i 1).val := by
  unfold DotDims.rhsIdx
  rw [dif_neg (show ¬(1 : Fin S10000x64.rank) ∈ dot_S10000x256_S10000x64_S256x64_0_0_1_1_n_n.rhsBatch by decide), dif_pos (show (1 : Fin S10000x64.rank) ∈ dot_S10000x256_S10000x64_S256x64_0_0_1_1_n_n.rhsNonContracting by decide)]
  rfl

/-- The product contracting the row axis of both operands, into the zero accumulator, at graph `g` and feature `f`:
    the sum over the staged rows of the left operand's column `g` times the right operand's column `f`. -/
theorem pool_matmul_apply (L : FVec Ideal S10000x256 .bf16) (R : FVec Ideal S10000x64 .bf16) (g : Fin 256) (f : Fin 64) :
    matmul dot_S10000x256_S10000x64_S256x64_0_0_1_1_n_n none L R (constant S256x64 .f32 0x00000000#32) (ix2 g f)
      = ∑ n : Fin 10000, L (ix2 n g) * R (ix2 n f) := by
  simp only [matmul]
  rw [Ideal.matmul_constant_zero_apply, ← Equiv.sum_comp (contrEquiv1 dot_S10000x256_S10000x64_S256x64_0_0_1_1_n_n 10000 rfl rfl).symm]
  refine Finset.sum_congr rfl fun k _ => ?_
  have hk := contrEquiv1_symm_val dot_S10000x256_S10000x64_S256x64_0_0_1_1_n_n 10000 rfl rfl k
  have el : dot_S10000x256_S10000x64_S256x64_0_0_1_1_n_n.lhsIdx (ix2 g f) ((contrEquiv1 dot_S10000x256_S10000x64_S256x64_0_0_1_1_n_n 10000 rfl rfl).symm k) = ix2 k g := funext fun a => Fin.ext (by
    match a with
    | ⟨0, _⟩ => exact (lhs_pool_0 _ _).trans hk
    | ⟨1, _⟩ => exact lhs_pool_1 _ _)
  have er : dot_S10000x256_S10000x64_S256x64_0_0_1_1_n_n.rhsIdx (ix2 g f) ((contrEquiv1 dot_S10000x256_S10000x64_S256x64_0_0_1_1_n_n 10000 rfl rfl).symm k) = ix2 k f := funext fun a => Fin.ext (by
    match a with
    | ⟨0, _⟩ => exact (rhs_pool_0 _ _).trans hk
    | ⟨1, _⟩ => exact rhs_pool_1 _ _)
  rw [el, er]

/-- The body's update at graph `g` and feature `f`: what the output buffer held there plus, over the staged rows whose
    graph word is `g`'s, the sum of the row's feature `f`. -/
theorem pay2_apply (cb : Vec Ideal S10000x1 .i32) (hb : Vec Ideal S10000x64 .f32) (acc : Vec Ideal S256x64 .f32)
    (g : Fin 256) (f : Fin 64) :
    k3_pay2 (F := Ideal) cb hb acc (ix2 g f)
      = acc (ix2 g f) + ∑ n : Fin 10000, (if cb (ix2 n (0 : Fin 1)) = BitVec.ofNat 32 g.val then hb (ix2 n f) else 0) := by
  unfold k3_pay2
  dsimp only
  refine (addf_apply _ _ _).trans ?_
  rw [shapeCast_self, pool_matmul_apply]
  refine congrArg (acc (ix2 g f) + ·) (Finset.sum_congr rfl fun n _ => ?_)
  rw [truncf_apply, truncf_apply, shapeCast_self, shapeCast_self, sitofp_apply, extui_apply]
  have hb1 : broadcastTo S10000x256 cb broadcasts_S10000x1_S10000x256 (ix2 n g) = cb (ix2 n (0 : Fin 1)) :=
    broadcastTo_apply cb broadcasts_S10000x1_S10000x256 (ix2 n g) (ix2 n (0 : Fin 1)) (fun a => match a with
      | ⟨0, _⟩ => by show n.val = if (10000 : Nat) = 1 then 0 else n.val; rw [if_neg (by decide)]
      | ⟨1, _⟩ => by show 0 = if (1 : Nat) = 1 then 0 else _; rw [if_pos rfl])
  have hi1 : iota .tc S10000x256 32 [1] iota_S10000x256_d1_w32 (ix2 n g) = BitVec.ofNat 32 g.val :=
    iota_single_apply .tc S10000x256 32 1 iota_S10000x256_d1_w32 (ix2 n g)
  show (FloatOps.sitofp (F := Ideal) .f32 ((IntOp.cmpi .eq (broadcastTo S10000x256 cb broadcasts_S10000x1_S10000x256 (ix2 n g))
      (iota .tc S10000x256 32 [1] iota_S10000x256_d1_w32 (ix2 n g))).setWidth 32) : Ideal .f32) * hb (ix2 n f) = _
  rw [hb1, hi1, hot_eq, hot_mul]

/-! ## What each case of the body leaves in the output buffer -/

section Pieces

variable {F : FTy → Type} [FloatOps F]

theorem hz : (![0, 0] : Fin 2 → Nat) = fun _ => 0 := funext fun a => by fin_cases a <;> rfl

/-- At a later point the body leaves, in the output buffer holding `xo`, its update of `xo` by the staged blocks. -/
theorem out_B (c : Dev nD) (i : grid3.Coords) (a1 : Memref sig .tc .vmem S10000x64 .f32) (h1 : a1.IsWhole)
    (a2 : Memref sig .tc .vmem S10000x1 .i32) (h2 : a2.IsWhole) (a3 : Memref sig .tc .vmem S256x64 .f32) (h3 : a3.IsWhole)
    (hc : ¬cond3_0 i) (x0 : Vec F S10000x64 .f32) (x1 : Vec F S10000x1 .i32) (xo : Vec F S256x64 .f32) :
    out3_B_2 c i a1 h1 a2 h2 a3 h3 hc x0 x1 xo = k3_pay2 x1 x0 xo := by
  unfold out3_B_2
  rw [View.read_writes_eq_canon _ _ _ (cover3_B_2 c i a1 h1 a2 h2 a3 h3 hc x0 x1 xo)]
  unfold kernelRun3_B
  dsimp only
  sl_unfold_words
  rw [View.canon_unit_zero (S := S256x64) hz]
  simp only [View.readAt_eq_ld, h1.read_unread, h2.read_unread, h3.read_unread, View.ld_unit_zero (S := S10000x64) hz,
    View.ld_unit_zero (S := S10000x1) hz, View.ld_unit_zero (S := S256x64) hz]

/-- At the first point the body stores the zero block, reads it back, and leaves its update of the zero block. -/
theorem out_A (c : Dev nD) (i : grid3.Coords) (a1 : Memref sig .tc .vmem S10000x64 .f32) (h1 : a1.IsWhole)
    (a2 : Memref sig .tc .vmem S10000x1 .i32) (h2 : a2.IsWhole) (a3 : Memref sig .tc .vmem S256x64 .f32) (h3 : a3.IsWhole)
    (hc : cond3_0 i) (x0 : Vec F S10000x64 .f32) (x1 : Vec F S10000x1 .i32) :
    out3_A_2 c i a1 h1 a2 h2 a3 h3 hc x0 x1 = k3_pay2 x1 x0 (k3_pay1 (F := F)) := by
  unfold out3_A_2
  rw [View.read_writes_eq_canon _ _ _ (cover3_A_2 c i a1 h1 a2 h2 a3 h3 hc x0 x1)]
  unfold kernelRun3_A
  dsimp only
  sl_unfold_words
  rw [View.canon_cons_unit_zero (S := S256x64) hz, View.readCov_unit_zero (S := S256x64) _ hz]
  simp only [View.readAt_eq_ld, h1.read_unread, h2.read_unread, View.ld_unit_zero (S := S10000x64) hz,
    View.ld_unit_zero (S := S10000x1) hz]

end Pieces

/-! ## The staged blocks are rows of the arrays -/

-- the TensorCore's buffer contents when the region is entered
variable (V : (c : Dev nD) → (b : Ref sig .tc) → Buf (Elt Ideal) ((c : Thread nD τ).loc b))

/-- The block of node rows staged at point `t`. -/
abbrev hblk (c : Dev nD) (t : Fin cfg3.N) : Vec Ideal S10000x64 .f32 := iblk3 (F := Ideal) V c 0 t
/-- The block of graph words staged at point `t`. -/
abbrev cblk (c : Dev nD) (t : Fin cfg3.N) : Vec Ideal S10000x1 .i32 := iblk3 (F := Ideal) V c 1 t
/-- The array of node rows. -/
abbrev harr (c : Dev nD) : Vec Ideal S100000x64 .f32 := V c main_v80
/-- The column of graph words. -/
abbrev carr (c : Dev nD) : Vec Ideal S100000x1 .i32 := V c main_v81

/-- Both input windows step down the rows with the point and never move along the columns. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0 :=
  (by decide +kernel : ∀ t : Fin grid3.N, win3_0.index t (0 : Fin 2) = t.val ∧ win3_0.index t (1 : Fin 2) = 0
    ∧ win3_1.index t (0 : Fin 2) = t.val ∧ win3_1.index t (1 : Fin 2) = 0)

/-- Row `n` of the block of node rows at point `t` is row `10000·t + n` of the array. -/
theorem hblk_apply (c : Dev nD) (t : Fin cfg3.N) (s : Fin 10) (hs : s.val = t.val) (n : Fin 10000) (f : Fin 64) :
    hblk V c t (ix2 n f) = harr V c (ix2 (rowOf s n) f) := by
  show ((cfg3.win 0).blk t).view.read (Elt Ideal) (V c (Pipeline.arrRef spec3 0)) (ix2 n f) = V c main_v80 (ix2 (rowOf s n) f)
  rw [View.read_apply]
  show V c main_v80 _ = V c main_v80 _
  congr 1
  funext a
  apply Fin.ext
  match a with
  | ⟨0, _⟩ => show win3_0.index t 0 * 10000 + 1 * n.val = 10000 * s.val + n.val; rw [(idx_facts t).1, hs]; omega
  | ⟨1, _⟩ => show win3_0.index t 1 * 64 + 1 * f.val = f.val; rw [(idx_facts t).2.1]; omega

/-- Row `n` of the block of graph words at point `t` is row `10000·t + n` of the column. -/
theorem cblk_apply (c : Dev nD) (t : Fin cfg3.N) (s : Fin 10) (hs : s.val = t.val) (n : Fin 10000) :
    cblk V c t (ix2 n (0 : Fin 1)) = carr V c (ix2 (rowOf s n) (0 : Fin 1)) := by
  show ((cfg3.win 1).blk t).view.read (Elt Ideal) (V c (Pipeline.arrRef spec3 1)) (ix2 n (0 : Fin 1)) = V c main_v81 (ix2 (rowOf s n) (0 : Fin 1))
  rw [View.read_apply]
  show V c main_v81 _ = V c main_v81 _
  congr 1
  funext a
  apply Fin.ext
  match a with
  | ⟨0, _⟩ => show win3_1.index t 0 * 10000 + 1 * n.val = 10000 * s.val + n.val; rw [(idx_facts t).2.2.1, hs]; omega
  | ⟨1, _⟩ => show win3_1.index t 1 * 1 + 1 * 0 = 0; rw [(idx_facts t).2.2.2]

/-! ## The running sum -/

/-- What block `s` of the rows adds at graph `g` and feature `f`: the feature of its rows whose graph word is `g`'s. -/
def part (c : Dev nD) (g : Fin 256) (f : Fin 64) (s : Fin 10) : EReal :=
  ∑ n : Fin 10000, if carr V c (ix2 (rowOf s n) (0 : Fin 1)) = BitVec.ofNat 32 g.val then harr V c (ix2 (rowOf s n) f) else 0

/-- The body's update at point `t`, at an index: what was there plus the point's block's part. -/
theorem pay_point (c : Dev nD) (t : Fin cfg3.N) (s : Fin 10) (hs : s.val = t.val) (acc : Vec Ideal S256x64 .f32)
    (g : Fin 256) (f : Fin 64) :
    k3_pay2 (F := Ideal) (cblk V c t) (hblk V c t) acc (ix2 g f) = acc (ix2 g f) + part V c g f s := by
  refine (pay2_apply (cblk V c t) (hblk V c t) acc g f).trans ?_
  refine congrArg (acc (ix2 g f) + ·) (Finset.sum_congr rfl fun n _ => ?_)
  rw [cblk_apply V c t s hs n, hblk_apply V c t s hs n f]

/-- After point `n` the output buffer holds, at graph `g` and feature `f`, zero plus the parts of blocks `0 … n`:
    by induction on the point, the first point resetting and every later one adding to what the point before left. -/
theorem outsAt_apply (c : Dev nD) (g : Fin 256) (f : Fin 64) : ∀ (n : ℕ) (hn : n < cfg3.N),
    outsAt3 (F := Ideal) V c n hn (ix2 g f)
      = Ideal.ofBits .f32 0x00000000#32
        + ∑ s : Fin (n + 1), part V c g f ⟨s.val, by have h3 : cfg3.N = 10 := N_3; have := s.isLt; omega⟩
  | 0, hn => by
    have e : outsAt3 (F := Ideal) V c 0 hn
        = k3_pay2 (cblk V c ⟨0, hn⟩) (hblk V c ⟨0, hn⟩) (k3_pay1 (F := Ideal)) :=
      (outsAt3_A V c ⟨0, hn⟩ rfl).trans (out_A (F := Ideal) c (grid3.coords ⟨0, hn⟩) (ms3_0 ⟨0, hn⟩) (hs3_0 ⟨0, hn⟩)
        (ms3_1 ⟨0, hn⟩) (hs3_1 ⟨0, hn⟩) (ms3_2 ⟨0, hn⟩) (hs3_2 ⟨0, hn⟩) ((hcond3_0 ⟨0, hn⟩).mpr rfl)
        (hblk V c ⟨0, hn⟩) (cblk V c ⟨0, hn⟩))
    rw [e]
    refine (pay_point V c ⟨0, hn⟩ 0 rfl (k3_pay1 (F := Ideal)) g f).trans ?_
    rw [Fin.sum_univ_one]
    rfl
  | n + 1, hn => by
    have hN : cfg3.N = 10 := N_3
    have hB : ¬(⟨n + 1, hn⟩ : Fin cfg3.N).val % 10 = 0 := by dsimp only; omega
    have e : outsAt3 (F := Ideal) V c (n + 1) hn
        = k3_pay2 (cblk V c ⟨n + 1, hn⟩) (hblk V c ⟨n + 1, hn⟩) (outsAt3 (F := Ideal) V c n (Nat.lt_of_succ_lt hn)) :=
      (outsAt3_B V c ⟨n + 1, hn⟩ hB).trans (out_B (F := Ideal) c (grid3.coords ⟨n + 1, hn⟩) (ms3_0 ⟨n + 1, hn⟩)
        (hs3_0 ⟨n + 1, hn⟩) (ms3_1 ⟨n + 1, hn⟩) (hs3_1 ⟨n + 1, hn⟩) (ms3_2 ⟨n + 1, hn⟩) (hs3_2 ⟨n + 1, hn⟩)
        (fun h => hB ((hcond3_0 ⟨n + 1, hn⟩).mp h)) (hblk V c ⟨n + 1, hn⟩) (cblk V c ⟨n + 1, hn⟩)
        (outsAt3 (F := Ideal) V c n (Nat.lt_of_succ_lt hn)))
    rw [e]
    refine (pay_point V c ⟨n + 1, hn⟩ ⟨n + 1, by omega⟩ rfl (outsAt3 (F := Ideal) V c n (Nat.lt_of_succ_lt hn)) g f).trans ?_
    have hs := Fin.sum_univ_castSucc (fun s : Fin (n + 1 + 1) =>
      part V c g f ⟨s.val, by have := s.isLt; omega⟩)
    rw [outsAt_apply c g f n (Nat.lt_of_succ_lt hn), hs, add_assoc]
    rfl

/-! ## The array after the run -/

/-- The specification at an index: zero plus, over all rows whose signed graph index is `g`, the row's feature `f`. -/
theorem spec_apply (h : Cert.Spec.FA Ideal Cert.ReferenceIdeal.S100000x64)
    (col : Cert.Spec.IA Ideal Cert.ReferenceIdeal.S100000x1) (g : Fin 256) (f : Fin 64) :
    Cert.Spec.poolSumCol (F := Ideal) h col (ix2 g f)
      = Ideal.ofBits .f32 0x00000000#32
        + ∑ e : Fin 100000, if (col (ix2 e (0 : Fin 1))).toInt = (g.val : ℤ) then h (ix2 e f) else 0 := by
  unfold Cert.Spec.poolSumCol
  exact Cert.LibRowsScatter.rowsScatterAdd_apply _ rfl rfl rfl rfl _ _ _ g f

/-- What the output buffer holds after the last point. -/
abbrev result (c : Dev nD) : Vec Ideal S256x64 .f32 :=
  outsAt3 (F := Ideal) V c 9 (by rw [show cfg3.N = 10 from N_3]; decide)

/-- It is the specification: the ten blocks' parts are one guarded sum over all rows, and a word is graph `g`'s exactly
    when its signed value is `g`. -/
theorem result_eq (c : Dev nD) :
    result V c = Cert.Spec.poolSumCol (F := Ideal) (V c main_v80) (V c main_v81) := by
  funext j
  obtain ⟨g, f, rfl⟩ : ∃ (g : Fin 256) (f : Fin 64), j = ix2 g f := ⟨j 0, j 1, eq_ix2 j⟩
  refine (outsAt_apply V c g f 9 _).trans ?_
  refine Eq.trans ?_ (spec_apply (V c main_v80) (V c main_v81) g f).symm
  refine congrArg (Ideal.ofBits .f32 0x00000000#32 + ·) ?_
  refine Eq.trans ?_ ((sum_blocks (fun e : Fin 100000 =>
    if carr V c (ix2 e (0 : Fin 1)) = BitVec.ofNat 32 g.val then harr V c (ix2 e f) else 0)).trans ?_)
  · exact Finset.sum_congr rfl fun s _ => rfl
  · exact Finset.sum_congr rfl fun e _ => if_congr (word_eq_iff _ g) rfl rfl

/-- The one write-back, after the last point, writes it: the block is the whole array. -/
theorem flushed_eq (c : Dev nD) (t : Fin cfg3.N) (hf : (cfg3.win 2).flush t = true) :
    (dat3 (F := Ideal) V c).flushed 2 t = ((cfg3.win 2).blk t).view.read (Elt Ideal) (result V c) := by
  have hN : cfg3.N = 10 := N_3
  have h9 : t.val = 9 := by have := (flush3_2 t).mp hf; have := t.isLt; omega
  obtain rfl : t = t3_9 := Fin.ext h9
  show (cfg3.win 2).cut (grid3.coords t3_9) ((dat3 (F := Ideal) V c).after 2 t3_9) = _
  rw [after3_2]
  have hz' : (fun a => win3_2.index t3_9 a * main_v82.ty.shape.size a) = fun _ => 0 :=
    funext fun a => by fin_cases a <;> decide +kernel
  exact (Memref.read_access_unit_zero (Elt Ideal) main_v82 hz' (fun a => by rw [congrFun hz' a]; simp) (result V c)).symm

/-- After the pool's region its output array holds, at graph `g` and feature `f`, the sum of the rows of the nodes
    whose graph index is `g`: the host's scatter-add of the rows at the column of graph indices. -/
theorem region3_value (c : Dev nD) :
    (dat3 (F := Ideal) V c).arrAt 2 cfg3.N = Cert.Spec.poolSumCol (F := Ideal) (V c main_v80) (V c main_v81) := by
  refine ((dat3 (F := Ideal) V c).arrAt_eq_of_cover 2 (result V c) (flushed_eq V c) fun i =>
    ⟨t3_9, (flush3_2 t3_9).mpr rfl, ?_⟩).trans (result_eq V c)
  show i ∈ ((View.whole main_v82).slice (win3_2.rect t3_9)).set
  rw [View.set_slice_whole, Rect.mem_set_unit]
  intro a
  have h0 : (i 0 : Nat) < 256 := (i 0).isLt
  have h1 : (i 1 : Nat) < 64 := (i 1).isLt
  match a with
  | ⟨0, _⟩ =>
    show win3_2.index t3_9 0 * win3_2.size 0 ≤ (i 0 : Nat)
      ∧ (i 0 : Nat) < win3_2.index t3_9 0 * win3_2.size 0 + win3_2.xsize (grid3.coords t3_9) 0
    rw [show win3_2.index t3_9 0 * win3_2.size 0 = 0 from by decide +kernel,
      show win3_2.xsize (grid3.coords t3_9) 0 = 256 from by decide +kernel]
    omega
  | ⟨1, _⟩ =>
    show win3_2.index t3_9 1 * win3_2.size 1 ≤ (i 1 : Nat)
      ∧ (i 1 : Nat) < win3_2.index t3_9 1 * win3_2.size 1 + win3_2.xsize (grid3.coords t3_9) 1
    rw [show win3_2.index t3_9 1 * win3_2.size 1 = 0 from by decide +kernel,
      show win3_2.xsize (grid3.coords t3_9) 1 = 64 from by decide +kernel]
    omega

end Cert.KernelIdeal.PoolRegion

end
-- ==== Proof.ClassifyRegion.lean ====
import proofs.«405667_j8718783610906_1_alg».proof.Proof.Gen.KernelIdeal.Frame
import proofs.«405667_j8718783610906_1_alg».proof.Proof.Gen.ReferenceIdeal
import proofs.«405667_j8718783610906_1_alg».proof.Proof.Spec
import Idealize.ShloMosaic.PureOps.Ideal
import Idealize.ShloMosaic.PureOps.Ideal.Laws
import Idealize.ShloMosaic.Lib.Pipeline.Value
import Idealize.ShloMosaic.Lib.ValueIdx

set_option maxRecDepth 16384

noncomputable section

namespace Cert.KernelIdeal.ClassifyRegion

open Cert.KernelIdeal Cert.KernelIdeal.Gen Idealize.ShloMosaic Idealize.ShloMosaic.TcCoe

section PerPoint

open Idealize.ShloMosaic.ValueIdx

/-! ## The contraction's index maps, axis by axis

The product contracts the left operand's axis 1 with the right operand's axis 0; the left operand's axis 0 is the
result's row and the right operand's axis 1 is the result's column. -/

theorem lhs_row (i : S256x10.Idx) (q : dot_S256x64_S64x10_S256x10_1_0_0_1_n_n.contr.Idx) :
    (dot_S256x64_S64x10_S256x10_1_0_0_1_n_n.lhsIdx i q 0).val = (i 0).val := by
  unfold DotDims.lhsIdx
  rw [dif_neg (show ¬(0 : Fin S256x64.rank) ∈ dot_S256x64_S64x10_S256x10_1_0_0_1_n_n.lhsBatch by decide), dif_pos (show (0 : Fin S256x64.rank) ∈ dot_S256x64_S64x10_S256x10_1_0_0_1_n_n.lhsNonContracting by decide)]
  rfl
theorem lhs_contr (i : S256x10.Idx) (q : dot_S256x64_S64x10_S256x10_1_0_0_1_n_n.contr.Idx) :
    (dot_S256x64_S64x10_S256x10_1_0_0_1_n_n.lhsIdx i q 1).val = (q ⟨0, by decide⟩).val :=
  dot_S256x64_S64x10_S256x10_1_0_0_1_n_n.lhsIdx_val_of_single rfl i q
theorem rhs_contr (i : S256x10.Idx) (q : dot_S256x64_S64x10_S256x10_1_0_0_1_n_n.contr.Idx) :
    (dot_S256x64_S64x10_S256x10_1_0_0_1_n_n.rhsIdx i q 0).val = (q ⟨0, by decide⟩).val :=
  dot_S256x64_S64x10_S256x10_1_0_0_1_n_n.rhsIdx_val_of_single rfl i q
theorem rhs_col (i : S256x10.Idx) (q : dot_S256x64_S64x10_S256x10_1_0_0_1_n_n.contr.Idx) :
    (dot_S256x64_S64x10_S256x10_1_0_0_1_n_n.rhsIdx i q 1).val = (i 1).val := by
  unfold DotDims.rhsIdx
  rw [dif_neg (show ¬(1 : Fin S64x10.rank) ∈ dot_S256x64_S64x10_S256x10_1_0_0_1_n_n.rhsBatch by decide), dif_pos (show (1 : Fin S64x10.rank) ∈ dot_S256x64_S64x10_S256x10_1_0_0_1_n_n.rhsNonContracting by decide)]
  rfl

/-- The left operand's index for result entry `(p, q)` and contraction coordinate `k` is `(p, k)`. -/
theorem lhsIdx_eq (p : Fin 256) (q : Fin 10) (k : Fin 64) :
    dot_S256x64_S64x10_S256x10_1_0_0_1_n_n.lhsIdx (ix2 p q) ((contrEquiv1 dot_S256x64_S64x10_S256x10_1_0_0_1_n_n 64 rfl rfl).symm k) = ix2 p k := by
  have hk := contrEquiv1_symm_val dot_S256x64_S64x10_S256x10_1_0_0_1_n_n 64 rfl rfl k
  exact funext fun a => Fin.ext (by
    match a with
    | ⟨0, _⟩ => exact lhs_row _ _
    | ⟨1, _⟩ => exact (lhs_contr _ _).trans hk)

/-- The right operand's index for result entry `(p, q)` and contraction coordinate `k` is `(k, q)`. -/
theorem rhsIdx_eq (p : Fin 256) (q : Fin 10) (k : Fin 64) :
    dot_S256x64_S64x10_S256x10_1_0_0_1_n_n.rhsIdx (ix2 p q) ((contrEquiv1 dot_S256x64_S64x10_S256x10_1_0_0_1_n_n 64 rfl rfl).symm k) = ix2 k q := by
  have hk := contrEquiv1_symm_val dot_S256x64_S64x10_S256x10_1_0_0_1_n_n 64 rfl rfl k
  exact funext fun a => Fin.ext (by
    match a with
    | ⟨0, _⟩ => exact (rhs_contr _ _).trans hk
    | ⟨1, _⟩ => exact rhs_col _ _)

/-- The classifier's entry `(p, q)`: row `p` of the pooled features against column `q` of the class weights,
    plus the class's bias. -/
def entry (x0 : S256x64.Idx → EReal) (x1 : S64x10.Idx → EReal) (x2 : S10.Idx → EReal) (p : Fin 256) (q : Fin 10) : EReal :=
  (∑ k : Fin 64, x0 (ix2 p k) * x1 (ix2 k q)) + x2 (ix1 q)

/-- The block product into a zero accumulator, at `(p, q)`, is the sum over the contracted axis. -/
theorem matmul_at (y0 : FVec Ideal S256x64 .bf16) (y1 : FVec Ideal S64x10 .bf16) (p : Fin 256) (q : Fin 10) :
    matmul dot_S256x64_S64x10_S256x10_1_0_0_1_n_n none y0 y1 (constant (F := Ideal) S256x10 .f32 0x00000000#32) (ix2 p q)
      = ∑ k : Fin 64, y0 (ix2 p k) * y1 (ix2 k q) := by
  show FloatOps.matmul dot_S256x64_S64x10_S256x10_1_0_0_1_n_n none y0 y1 (constant (F := Ideal) S256x10 .f32 0x00000000#32) (ix2 p q) = _
  rw [Ideal.matmul_constant_zero_apply, ← Equiv.sum_comp (contrEquiv1 dot_S256x64_S64x10_S256x10_1_0_0_1_n_n 64 rfl rfl).symm]
  refine Finset.sum_congr rfl fun k _ => ?_
  rw [lhsIdx_eq, rhsIdx_eq]

/-- The bias cast to one row and repeated down the rows, at `(p, q)`, is the bias at `q`. -/
theorem bias_at (x2 : Vec Ideal S10 .f32) (p : Fin 256) (q : Fin 10) :
    broadcastTo S256x10 (shapeCast S1x10 x2 shapeCasts_S10_S1x10) broadcasts_S1x10_S256x10 (ix2 p q) = x2 (ix1 q) := by
  rw [broadcastTo_apply _ broadcasts_S1x10_S256x10 (ix2 p q) (ix2 (0 : Fin 1) q) (fun a => by
    match a with
    | ⟨0, _⟩ => show 0 = if (1 : Nat) = 1 then 0 else _; rw [if_pos rfl]
    | ⟨1, _⟩ => show q.val = if (10 : Nat) = 1 then 0 else q.val; rw [if_neg (by decide)])]
  exact shapeCast_apply x2 shapeCasts_S10_S1x10 (ix2 (0 : Fin 1) q) (ix1 q) (by
    rw [Shape.rowMajor_val_two, Shape.rowMajor_val_one]
    show q.val = 0 * 10 + q.val
    omega)

/-- The body's payload at `(p, q)`. -/
theorem pay_at (x0 : Vec Ideal S256x64 .f32) (x1 : Vec Ideal S64x10 .f32) (x2 : Vec Ideal S10 .f32) (p : Fin 256) (q : Fin 10) :
    k4_pay1 (F := Ideal) x0 x1 x2 (ix2 p q) = entry x0 x1 x2 p q := by
  unfold k4_pay1 entry
  rw [shapeCast_self]
  rw [addf_apply, matmul_at, bias_at]
  rfl

/-- The reference's bias, placed on a row axis and repeated down the rows, at `(p, q)`, is the bias at `q`. -/
theorem ref_bias_at (x2 : Cert.Spec.FA Ideal Cert.ReferenceIdeal.S10) (p : Fin 256) (q : Fin 10) :
    broadcastInDim Cert.ReferenceIdeal.S256x10 ![0, 1] Cert.ReferenceIdeal.Facts₀.bcast_S1x10_S256x10_0_1
      (broadcastInDim Cert.ReferenceIdeal.S1x10 ![1] Cert.ReferenceIdeal.Facts₀.bcast_S10_S1x10_1 x2) (ix2 p q) = x2 (ix1 q) := by
  rw [broadcastInDim_apply _ Cert.ReferenceIdeal.Facts₀.bcast_S1x10_S256x10_0_1 _ (ix2 p q) (ix2 (0 : Fin 1) q) (fun a => by
    match a with
    | ⟨0, _⟩ => show 0 = if (1 : Nat) = 1 then 0 else p.val; rw [if_pos rfl]
    | ⟨1, _⟩ => show q.val = if (10 : Nat) = 1 then 0 else q.val; rw [if_neg (by decide)])]
  exact broadcastInDim_apply _ Cert.ReferenceIdeal.Facts₀.bcast_S10_S1x10_1 x2 (ix2 (0 : Fin 1) q) (ix1 q) (fun a => by
    match a with
    | ⟨0, _⟩ => show q.val = if (10 : Nat) = 1 then 0 else q.val; rw [if_neg (by decide)])

/-- The specification's classifier at `(p, q)`. -/
theorem classify_at (x0 : Cert.Spec.FA Ideal Cert.ReferenceIdeal.S256x64) (x1 : Cert.Spec.FA Ideal Cert.ReferenceIdeal.S64x10)
    (x2 : Cert.Spec.FA Ideal Cert.ReferenceIdeal.S10) (p : Fin 256) (q : Fin 10) :
    Cert.Spec.classify (F := Ideal) x0 x1 x2 (ix2 p q) = entry x0 x1 x2 p q := by
  unfold Cert.Spec.classify entry
  rw [addf_apply, ref_bias_at]
  show (Host.dotGeneral (F := Ideal) dot_S256x64_S64x10_S256x10_1_0_0_1_n_n none (x0 : FVec Ideal S256x64 .f32) (x1 : FVec Ideal S64x10 .f32)) (ix2 p q) + _ = _
  simp only [Host.dotGeneral]
  rw [Ideal.dotGeneral_apply, ← Equiv.sum_comp (contrEquiv1 dot_S256x64_S64x10_S256x10_1_0_0_1_n_n 64 rfl rfl).symm]
  congr 1
  refine Finset.sum_congr rfl fun k _ => ?_
  rw [lhsIdx_eq, rhsIdx_eq]

/-- The body's payload is the specification's classifier of the loaded arrays. -/
theorem pay_eq_classify (x0 : Vec Ideal S256x64 .f32) (x1 : Vec Ideal S64x10 .f32) (x2 : Vec Ideal S10 .f32) :
    k4_pay1 (F := Ideal) x0 x1 x2 = Cert.Spec.classify (F := Ideal) x0 x1 x2 := by
  funext j
  obtain ⟨p, q, rfl⟩ : ∃ (p : Fin 256) (q : Fin 10), j = ix2 p q := ⟨j 0, j 1, eq_ix2 j⟩
  rw [pay_at, classify_at]

end PerPoint

-- the TensorCore's buffer contents when the region is entered
variable (V : (c : Dev nD) → (b : Ref sig .tc) → Buf (Elt Ideal) ((c : Thread nD τ).loc b))

/-! ## From the one block to the array

The grid has one point; each window's index map sends it to block 0, and each block is its whole array. -/

theorem hz2 : (![0, 0] : Fin 2 → Nat) = fun _ => 0 := funext fun a => by fin_cases a <;> rfl
theorem hz1 : (![0] : Fin 1 → Nat) = fun _ => 0 := funext fun a => by fin_cases a; rfl

/-- The printed index maps at the grid's point: block 0 on every axis of every window. -/
theorem idx_zero : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = 0 ∧ win4_3.index t (1 : Fin 2) = 0 :=
  (by decide +kernel : ∀ t : Fin grid4.N, _)

/-- The pooled features' block is the whole array. -/
theorem iblk_p (c : Dev nD) (t : Fin cfg4.N) :
    (iblk4 V c 0 t : Vec Ideal S256x64 .f32) = (V c main_v91 : S256x64.Idx → Elt Ideal .f32) := by
  obtain ⟨e0, e1, -⟩ := idx_zero t
  funext x
  unfold iblk4
  rw [View.read_apply]
  show V c main_v91 _ = V c main_v91 _
  congr 1
  funext a
  apply Fin.ext
  match a with
  | ⟨0, _⟩ => show win4_0.index t 0 * 256 + 1 * (x 0).val = (x 0).val; rw [e0]; omega
  | ⟨1, _⟩ => show win4_0.index t 1 * 64 + 1 * (x 1).val = (x 1).val; rw [e1]; omega

/-- The class weights' block is the whole array. -/
theorem iblk_W (c : Dev nD) (t : Fin cfg4.N) :
    (iblk4 V c 1 t : Vec Ideal S64x10 .f32) = (V c main_arg9 : S64x10.Idx → Elt Ideal .f32) := by
  obtain ⟨-, -, e0, e1, -⟩ := idx_zero t
  funext x
  unfold iblk4
  rw [View.read_apply]
  show V c main_arg9 _ = V c main_arg9 _
  congr 1
  funext a
  apply Fin.ext
  match a with
  | ⟨0, _⟩ => show win4_1.index t 0 * 64 + 1 * (x 0).val = (x 0).val; rw [e0]; omega
  | ⟨1, _⟩ => show win4_1.index t 1 * 10 + 1 * (x 1).val = (x 1).val; rw [e1]; omega

/-- The bias's block is the whole array. -/
theorem iblk_b (c : Dev nD) (t : Fin cfg4.N) :
    (iblk4 V c 2 t : Vec Ideal S10 .f32) = (V c main_arg10 : S10.Idx → Elt Ideal .f32) := by
  obtain ⟨-, -, -, -, e0, -⟩ := idx_zero t
  funext x
  unfold iblk4
  rw [View.read_apply]
  show V c main_arg10 _ = V c main_arg10 _
  congr 1
  funext a
  apply Fin.ext
  match a with
  | ⟨0, _⟩ => show win4_2.index t 0 * 10 + 1 * (x 0).val = (x 0).val; rw [e0]; omega

/-- The output window's block at the grid's point, read off any contents of the output array, is the whole contents. -/
theorem blk_read_whole (t : Fin cfg4.N) (G : S256x10.Idx → Elt Ideal .f32) :
    (cfg4.win 3).cut (grid4.coords t) G = ((cfg4.win 3).blk t).view.read (Elt Ideal) G := by
  obtain ⟨-, -, -, -, -, e0, e1⟩ := idx_zero t
  funext j
  rw [View.read_apply]
  show G _ = G _
  refine congrArg G (funext fun a => Fin.ext ?_)
  match a with
  | ⟨0, _⟩ => show (j 0).val = win4_3.index t 0 * 256 + 1 * (j 0).val; rw [e0]; omega
  | ⟨1, _⟩ => show (j 1).val = win4_3.index t 1 * 10 + 1 * (j 1).val; rw [e1]; omega

/-- What the grid's point writes back is its block of the classifier of the arrays the region finds. -/
theorem flushed_eq (c : Dev nD) (t : Fin cfg4.N) :
    (dat4 (F := Ideal) V c).flushed 3 t = ((cfg4.win 3).blk t).view.read (Elt Ideal)
      (Cert.Spec.classify (F := Ideal) (V c main_v91) (V c main_arg9) (V c main_arg10)) := by
  show (cfg4.win 3).cut (grid4.coords t) ((dat4 (F := Ideal) V c).after 3 t) = _
  rw [after4_3]
  unfold out4_3
  rw [View.canon_unit_zero hz2]
  simp only [View.ld_unit_zero (S := S256x64) hz2, View.ld_unit_zero (S := S64x10) hz2, View.ld_unit_zero (S := S10) hz1]
  rw [iblk_p, iblk_W, iblk_b, pay_eq_classify]
  exact blk_read_whole t _

/-- Every index of the output array is in the block of the grid's point. -/
theorem covered (i : S256x10.Idx) :
    ∃ t : Fin cfg4.N, (cfg4.win 3).flush t = true ∧ i ∈ ((cfg4.win 3).blk t).view.set := by
  have t : Fin cfg4.N := ⟨0, by decide +kernel⟩
  obtain ⟨-, -, -, -, -, e0, e1⟩ := idx_zero t
  refine ⟨t, flush4_3 t, ?_⟩
  show i ∈ ((View.whole main_v92).slice (win4_3.rect t)).set
  rw [View.set_slice_whole, Rect.mem_set_unit]
  intro a
  have h0 : (i 0 : Nat) < 256 := (i 0).isLt
  have h1 : (i 1 : Nat) < 10 := (i 1).isLt
  match a with
  | ⟨0, _⟩ => show win4_3.index t 0 * 256 ≤ (i 0 : Nat) ∧ (i 0 : Nat) < win4_3.index t 0 * 256 + 256; rw [e0]; omega
  | ⟨1, _⟩ => show win4_3.index t 1 * 10 ≤ (i 1 : Nat) ∧ (i 1 : Nat) < win4_3.index t 1 * 10 + 10; rw [e1]; omega

/-- After the classifier's region its output array holds the pooled features times the class weights plus the bias. -/
theorem region4_value (c : Dev nD) :
    (dat4 (F := Ideal) V c).arrAt 3 cfg4.N = Cert.Spec.classify (F := Ideal) (V c main_v91) (V c main_arg9) (V c main_arg10) := by
  exact (dat4 (F := Ideal) V c).arrAt_eq_of_cover 3 _ (fun t _ => flushed_eq V c t) covered

end Cert.KernelIdeal.ClassifyRegion

end
-- ==== Proof.lean ====
/-
  A three-layer graph convolution, a mean pool over graphs and a linear classifier: the kernel program against its
  plain reference, over the extended reals.

  The two programs run the same host operations on the edge list (the edges' end nodes with the self loops appended,
  the inverse square root degrees, the edge weights), the same gather, weighted scatter-add, bias and clip in each
  layer, the same node counts and division in the pool. They differ in five places, where the kernel program launches a
  region: the three dense products (computed block of rows by block of rows, each block a product into a zero
  accumulator: at the ideal instance the same sum over the contracted axis as the host's product of the whole
  arrays), the pool's sums (ten partial products of a one-hot matrix of graph membership with a block of rows, added
  up: in the extended reals one times x is x and zero times x is zero for every x, so the total is the sum of the rows
  of each graph's nodes, which is the host's scatter-add), and the classifier (one product and a bias). So both results
  are one function, `Cert.Spec.finalSpec`, of the argument arrays. No law used needs finiteness: the precondition is
  never opened.
-/
import proofs.«405667_j8718783610906_1_alg».proof.Defs
import proofs.«405667_j8718783610906_1_alg».proof.Proof.Gen.Kernel
import proofs.«405667_j8718783610906_1_alg».proof.Proof.Gen.Kernel.Skeleton
import proofs.«405667_j8718783610906_1_alg».proof.Proof.Gen.Kernel.Launch
import proofs.«405667_j8718783610906_1_alg».proof.Proof.Gen.Kernel.Points
import proofs.«405667_j8718783610906_1_alg».proof.Proof.Gen.Kernel.Frame
import proofs.«405667_j8718783610906_1_alg».proof.Proof.Gen.KernelIdeal
import proofs.«405667_j8718783610906_1_alg».proof.Proof.Gen.KernelIdeal.Skeleton
import proofs.«405667_j8718783610906_1_alg».proof.Proof.Gen.KernelIdeal.Launch
import proofs.«405667_j8718783610906_1_alg».proof.Proof.Gen.KernelIdeal.Points
import proofs.«405667_j8718783610906_1_alg».proof.Proof.Gen.KernelIdeal.Frame
import proofs.«405667_j8718783610906_1_alg».proof.Proof.Gen.ReferenceIdeal
import proofs.«405667_j8718783610906_1_alg».proof.Proof.Gen.ReferenceIdeal.Run
import proofs.«405667_j8718783610906_1_alg».proof.Proof.Gen.Pre_finite_inputs
import proofs.«405667_j8718783610906_1_alg».proof.Proof.KernelIdealRun
import proofs.«405667_j8718783610906_1_alg».proof.Proof.Chain
import proofs.«405667_j8718783610906_1_alg».proof.Proof.RefValue
import proofs.«405667_j8718783610906_1_alg».proof.Proof.MatmulRegions
import proofs.«405667_j8718783610906_1_alg».proof.Proof.Matmul12Regions
import proofs.«405667_j8718783610906_1_alg».proof.Proof.PoolRegion
import proofs.«405667_j8718783610906_1_alg».proof.Proof.ClassifyRegion
import Idealize.ShloMosaic.Adequacy
import Idealize.ShloMosaic.Init

set_option maxRecDepth 16384

noncomputable section

namespace Cert.Proof

open Idealize.ShloMosaic Idealize.ShloMosaic.TcCoe Idealize.SL.Sem

/-- What the five regions leave, each proved in its own module. -/
theorem regionValues : Cert.KernelIdeal.Chain.RegionValues :=
  ⟨Cert.KernelIdeal.MatmulRegions.region0_value, Cert.KernelIdeal.Matmul12Regions.region1_value,
    Cert.KernelIdeal.Matmul12Regions.region2_value, Cert.KernelIdeal.PoolRegion.region3_value,
    Cert.KernelIdeal.ClassifyRegion.region4_value⟩

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the whole network of the argument arrays in their result. -/
theorem algebraic : Cert.algebraic_KernelIdeal_ReferenceIdeal := by
  intro m ρ m' ρ' _ hagree
  refine ⟨fun c => Cert.Spec.finalSpec (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (Cert.KernelIdeal.Chain.W14_v92 regionValues m ρ c), (h c).2⟩)
      (Cert.KernelIdeal.RunValue.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.result_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2.1, (hagree c).2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
